-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x64 .f32) (main_arg15 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : FVec F S800000x64 .f32) (main_arg2 : IVec S800000 32) (main_arg3 : IVec S800000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S1x64 : Shape := ⟨2, ![1, 64]⟩
abbrev S5000x64 : Shape := ⟨2, ![5000, 64]⟩
abbrev S_ : Shape := ⟨0, ![]⟩
abbrev S800000x1 : Shape := ⟨2, ![800000, 1]⟩
abbrev S8000x64 : Shape := ⟨2, ![8000, 64]⟩
abbrev S50000 : Shape := ⟨1, ![50000]⟩
abbrev S50000x1 : Shape := ⟨2, ![50000, 1]⟩

abbrev nBuf : Space → Nat
  | .hbm => 57
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64x64, .f32⟩
  | .hbm, ⟨18, _⟩ => ⟨S1x64, .f32⟩
  | .hbm, ⟨19, _⟩ => ⟨S1x64, .f32⟩
  | .hbm, ⟨20, _⟩ => ⟨S50000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S800000, .f32⟩
  | .hbm, ⟨42, _⟩ => ⟨S_, .f32⟩
  | .hbm, ⟨43, _⟩ => ⟨S50000, .f32⟩
  | .hbm, ⟨44, _⟩ => ⟨S800000x1, .i32⟩
  | .hbm, ⟨45, _⟩ => ⟨S50000, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S50000x1, .f32⟩
  | .hbm, ⟨55, _⟩ => ⟨S50000x64, .f32⟩
  | .hbm, ⟨56, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev main_cst : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S8000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S8000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S800000 : S_.BroadcastsInDim S800000 (![] : Fin 0 → Fin S800000.rank)
  bcast_S800000_S800000x1_0 : S800000.BroadcastsInDim S800000x1 (![0] : Fin 1 → Fin S800000x1.rank)
  inb_S8000x64_S8000x64_0_0 : ∀ a, (![0, 0] : Fin 2 → Nat) a + S8000x64.size a ≤ S8000x64.size a
  h_S8000x64 : 0 < S8000x64.numel
  broadcasts_S1x64_S8000x64 : S1x64.Broadcasts S8000x64
  shapeCasts_S8000x64_S8000x64 : S8000x64.ShapeCasts S8000x64
  bcast_S_S50000 : S_.BroadcastsInDim S50000 (![] : Fin 0 → Fin S50000.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8000x64.size a ≤ S800000x64.size a
  hwx1_10 : ∀ i : grid1.Coords, EltTy.bits .f32 = 32 ∨ (Rect.block (s := S800000x64) S8000x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S8000x64.size a ≤ S800000x64.size a
  hwx1_11 : ∀ i : grid1.Coords, EltTy.bits .f32 = 32 ∨ (Rect.block (s := S800000x64) S8000x64.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20_0) S8000x64.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v20_1) S8000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩
abbrev S1x64 : Shape := ⟨2, ![1, 64]⟩
abbrev S800000x1 : Shape := ⟨2, ![800000, 1]⟩
abbrev S50000 : Shape := ⟨1, ![50000]⟩
abbrev S50000x1 : Shape := ⟨2, ![50000, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S_, .f32⟩
  | .hbm, ⟨17, _⟩ => ⟨S50000x64, .f32⟩
  | .hbm, ⟨18, _⟩ => ⟨S50000x64, .i1⟩
  | .hbm, ⟨19, _⟩ => ⟨S_, .f32⟩
  | .hbm, ⟨20, _⟩ => ⟨S50000x64, .f32⟩
  | .hbm, ⟨21, _⟩ => ⟨S50000x64, .f32⟩
  | .hbm, ⟨22, _⟩ => ⟨S50000x64, .f32⟩
  | .hbm, ⟨23, _⟩ => ⟨S64x64, .f32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S50000x64, .f32⟩
  | .hbm, ⟨28, _⟩ => ⟨S_, .f32⟩
  | .hbm, ⟨29, _⟩ => ⟨S50000x64, .f32⟩
  | .hbm, ⟨30, _⟩ => ⟨S50000x64, .i1⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S64x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S50000x64, .f32⟩
  | .hbm, ⟨40, _⟩ => ⟨S64x64, .f32⟩
  | .hbm, ⟨41, _⟩ => ⟨S800000x64, .f32⟩
  | .hbm, ⟨42, _⟩ => ⟨S1x64, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S800000x64, .f32⟩
  | .hbm, ⟨47, _⟩ => ⟨S800000x64, .f32⟩
  | .hbm, ⟨48, _⟩ => ⟨S64x64, .f32⟩
  | .hbm, ⟨49, _⟩ => ⟨S800000x64, .f32⟩
  | .hbm, ⟨50, _⟩ => ⟨S1x64, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S800000x64, .f32⟩
  | .hbm, ⟨55, _⟩ => ⟨S800000x64, .f32⟩
  | .hbm, ⟨56, _⟩ => ⟨S64x64, .f32⟩
  | .hbm, ⟨57, _⟩ => ⟨S800000x64, .f32⟩
  | .hbm, ⟨58, _⟩ => ⟨S1x64, .f32⟩
  | .hbm, ⟨59, _⟩ => ⟨S800000x64, .f32⟩
  | .hbm, ⟨60, _⟩ => ⟨S800000x64, .f32⟩
  | .hbm, ⟨61, _⟩ => ⟨S800000x64, .f32⟩
  | .hbm, ⟨62, _⟩ => ⟨S800000x64, .f32⟩
  | .hbm, ⟨63, _⟩ => ⟨S_, .f32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S800000x64, .f32⟩
  | .hbm, ⟨68, _⟩ => ⟨S800000x64, .f32⟩
  | .hbm, ⟨69, _⟩ => ⟨S64x64, .f32⟩
  | .hbm, ⟨70, _⟩ => ⟨S800000x64, .f32⟩
  | .hbm, ⟨71, _⟩ => ⟨S1x64, .f32⟩
  | .hbm, ⟨72, _⟩ => ⟨S800000x64, .f32⟩
  | .hbm, ⟨73, _⟩ => ⟨S800000x64, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x64, .f32⟩
  | .hbm, ⟨83, _⟩ => ⟨S800000x64, .f32⟩
  | .hbm, ⟨84, _⟩ => ⟨S800000x64, .f32⟩
  | .hbm, ⟨85, _⟩ => ⟨S800000x64, .f32⟩
  | .hbm, ⟨86, _⟩ => ⟨S_, .f32⟩
  | .hbm, ⟨87, _⟩ => ⟨S800000, .f32⟩
  | .hbm, ⟨88, _⟩ => ⟨S_, .f32⟩
  | .hbm, ⟨89, _⟩ => ⟨S50000, .f32⟩
  | .hbm, ⟨90, _⟩ => ⟨S800000x1, .i32⟩
  | .hbm, ⟨91, _⟩ => ⟨S50000, .f32⟩
  | .hbm, ⟨92, _⟩ => ⟨S_, .f32⟩
  | .hbm, ⟨93, _⟩ => ⟨S50000, .f32⟩
  | .hbm, ⟨94, _⟩ => ⟨S50000, .f32⟩
  | .hbm, ⟨95, _⟩ => ⟨S50000x1, .f32⟩
  | .hbm, ⟨96, _⟩ => ⟨S_, .f32⟩
  | .hbm, ⟨97, _⟩ => ⟨S50000x64, .f32⟩
  | .hbm, ⟨98, _⟩ => ⟨S800000x1, .i32⟩
  | .hbm, ⟨99, _⟩ => ⟨S50000x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S50000x64, .f32⟩
  | .hbm, ⟨104, _⟩ => ⟨S800000x1, .i32⟩
  | .hbm, ⟨105, _⟩ => ⟨S50000x64, .f32⟩
  | .hbm, ⟨106, _⟩ => ⟨S50000x64, .f32⟩
  | .hbm, ⟨107, _⟩ => ⟨S50000x64, .f32⟩
  | .hbm, ⟨108, _⟩ => ⟨S50000x64, .f32⟩
  | .hbm, ⟨109, _⟩ => ⟨S_, .f32⟩
  | .hbm, ⟨110, _⟩ => ⟨S50000x64, .f32⟩
  | .hbm, ⟨111, _⟩ => ⟨S50000x64, .f32⟩
  | .hbm, ⟨112, _⟩ => ⟨S_, .f32⟩
  | .hbm, ⟨113, _⟩ => ⟨S50000x64, .f32⟩
  | .hbm, ⟨114, _⟩ => ⟨S50000x64, .f32⟩
  | .hbm, ⟨115, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call2_cst : Ref sig .tc := ⟨.hbm, 45, rfl⟩
abbrev main_call2_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call3_cst : Ref sig .tc := ⟨.hbm, 53, rfl⟩
abbrev main_call3_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c : Ref sig .tc := ⟨.hbm, 74, rfl⟩
abbrev main_v48 : Ref sig .tc := ⟨.hbm, 75, rfl⟩
abbrev main_v49 : Ref sig .tc := ⟨.hbm, 76, rfl⟩
abbrev main_c_5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_6 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_8 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_9 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_10 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call4_cst : Ref sig .tc := ⟨.hbm, 109, rfl⟩
abbrev main_call4_v0 : Ref sig .tc := ⟨.hbm, 110, rfl⟩
abbrev main_v76 : Ref sig .tc := ⟨.hbm, 111, rfl⟩
abbrev main_cst_11 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The mathematics of the message-passing layer, row by row, over the extended reals.

  A node's pooled feature row is two dense layers with a leaky rectifier before each:
      pool x = B (lrelu (A (lrelu x))),   A y = y · Wa + ba,   B y = y · Wb + bb,
  the weight matrices being the TRANSPOSED ones the programs hand to the product (entry (k, j) multiplies
  input feature k into output feature j) and each bias a 1 × 64 row.
  An edge's message is a gated affine map of the pooled row of its source node,
      h = relu (relu (e · W1 + b1) · W2 + b2),   m = sigmoid (h · WB + bB) * v + (h · WC + bC),
  and the layer's result at a node, from the segment sums a = Σ m, b = Σ m², and the in-degree d, is
      sqrt (max (b / max d 1 - a / max d 1) 0 + eps).
  The float literals stay the binary words both programs print; only their being the SAME words matters.
-/
import Idealize.ShloMosaic.PureOps.Ideal
import Idealize.ShloMosaic.Lib.ValueIdx

noncomputable section

namespace Cert.Spec

open Idealize.ShloMosaic Idealize.ShloMosaic.ValueIdx

/-- nodes × features, edges × features, a weight matrix, a bias row. -/
abbrev SN : Shape := ⟨2, ![50000, 64]⟩
abbrev SE : Shape := ⟨2, ![800000, 64]⟩
abbrev SW : Shape := ⟨2, ![64, 64]⟩
abbrev SR : Shape := ⟨2, ![1, 64]⟩

abbrev zero : EReal := Ideal.ofBits .f32 0x00000000#32
abbrev slope : EReal := Ideal.ofBits .f32 0x3E4CCCCD#32
abbrev one : EReal := Ideal.ofBits .f32 0x3F800000#32
abbrev eps : EReal := Ideal.ofBits .f32 0x3727C5AC#32

/-- The leaky rectifier: x where x ≥ 0, slope · x elsewhere. -/
def lrelu (x : EReal) : EReal :=
  Scalar.select (FloatOps.cmpf (F := Ideal) (φ := .f32) .oge x zero) x (slope * x)

/-- The rectifier. -/
def relu (x : EReal) : EReal := max x zero

/-- One dense layer on a feature row: (x · W + b) at output feature j. -/
def dense (x : Fin 64 → EReal) (W : SW.Idx → EReal) (b : SR.Idx → EReal) (j : Fin 64) : EReal :=
  (∑ k : Fin 64, x k * W (ix2 k j)) + b (ix2 0 j)

/-- A node's pooled row. -/
def poolRow (x : Fin 64 → EReal) (Wa : SW.Idx → EReal) (ba : SR.Idx → EReal) (Wb : SW.Idx → EReal) (bb : SR.Idx → EReal)
    (j : Fin 64) : EReal :=
  dense (fun k => lrelu (dense (fun k' => lrelu (x k')) Wa ba k)) Wb bb j

/-- An edge's hidden row: two dense layers, each rectified. -/
def hidRow (e : Fin 64 → EReal) (W1 : SW.Idx → EReal) (b1 : SR.Idx → EReal) (W2 : SW.Idx → EReal) (b2 : SR.Idx → EReal)
    (k : Fin 64) : EReal :=
  relu (dense (fun k' => relu (dense e W1 b1 k')) W2 b2 k)

/-- An edge's message from its feature row e and its source node's pooled row v. -/
def msgRow (e v : Fin 64 → EReal) (W1 : SW.Idx → EReal) (b1 : SR.Idx → EReal) (W2 : SW.Idx → EReal) (b2 : SR.Idx → EReal)
    (WB : SW.Idx → EReal) (bB : SR.Idx → EReal) (WC : SW.Idx → EReal) (bC : SR.Idx → EReal) (j : Fin 64) : EReal :=
  Ideal.logistic (dense (hidRow e W1 b1 W2 b2) WB bB j) * v j + dense (hidRow e W1 b1 W2 b2) WC bC j

/-- The result at one entry from the two segment sums and the in-degree. -/
def fin (a b d : EReal) : EReal :=
  Ideal.sqrt (max (Ideal.div b (max d one) - Ideal.div a (max d one)) zero + eps)

/-- Every node's pooled row: the whole array. -/
def pool (X : SN.Idx → EReal) (Wa : SW.Idx → EReal) (ba : SR.Idx → EReal) (Wb : SW.Idx → EReal) (bb : SR.Idx → EReal) :
    SN.Idx → EReal :=
  fun i => poolRow (fun k => X (ix2 (i 0) k)) Wa ba Wb bb (i 1)

/-- Every edge's message: the whole array, from the edge features and the gathered pooled rows. -/
def msg (E V : SE.Idx → EReal) (W1 : SW.Idx → EReal) (b1 : SR.Idx → EReal) (W2 : SW.Idx → EReal) (b2 : SR.Idx → EReal)
    (WB : SW.Idx → EReal) (bB : SR.Idx → EReal) (WC : SW.Idx → EReal) (bC : SR.Idx → EReal) : SE.Idx → EReal :=
  fun i => msgRow (fun k => E (ix2 (i 0) k)) (fun k => V (ix2 (i 0) k)) W1 b1 W2 b2 WB bB WC bC (i 1)

/-- The squared messages. -/
def msgSq (E V : SE.Idx → EReal) (W1 : SW.Idx → EReal) (b1 : SR.Idx → EReal) (W2 : SW.Idx → EReal) (b2 : SR.Idx → EReal)
    (WB : SW.Idx → EReal) (bB : SR.Idx → EReal) (WC : SW.Idx → EReal) (bC : SR.Idx → EReal) : SE.Idx → EReal :=
  fun i => msg E V W1 b1 W2 b2 WB bB WC bC i * msg E V W1 b1 W2 b2 WB bB WC bC i

/-- The layer's result from the two segment-sum arrays and the in-degree array, entry by entry. -/
def final (A B D : SN.Idx → EReal) : SN.Idx → EReal := fun i => fin (A i) (B i) (D i)

end Cert.Spec

end
-- ==== Proof.K0.lean ====
/-
  The node-pooling region as mathematics.

  The region walks the 50000 × 64 array of node features in ten blocks of 5000 rows. On a block X, with the two
  transposed weight matrices Wa, Wb (64 × 64, whole at every point) and the two bias rows ba, bb (1 × 64, whole at
  every point), the body leaves
      Y = lrelu (lrelu X · Wa + ba) · Wb + bb,
  lrelu being the leaky rectifier entry by entry, each product contracting the 64 features, each bias row added to
  every row. Over the extended reals narrowing a product's operands changes nothing, and a product into the zero
  accumulator is the plain sum ∑ₖ x[p, k] · W[k, q]. So entry (p, q) of Y is the pooled row of row p of X at
  feature q, and no other row of X enters it.
  Block t of the features and of the result is rows 5000·t … 5000·t + 4999; hence what point t writes back is block t
  of the whole-array function Spec.pool of the arrays the region found. Row r lies in the block of point r / 5000 and
  every point writes its block back, so the ten blocks cover the result array, which ends holding Spec.pool.
-/
import proofs.«160303_j52123723105097_1_alg».proof.Proof.Gen.KernelIdeal.Frame
import proofs.«160303_j52123723105097_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Pool

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- The left factor's row is the result's row … -/
theorem lhs_row (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and its column the contraction index. -/
theorem lhs_col (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- The right factor's row is the contraction index … -/
theorem rhs_row (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
/-- … and its column the result's column. -/
theorem rhs_col (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 by 64 × 64 product into the zero accumulator, at entry (p, q): ∑ₖ x[p, k] · w[k, q]. -/
theorem prod_apply {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q) = ∑ k : Fin 64, x (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The payload at an index -/

/-- The leaky rectifier of a block, entry by entry: compare with zero, keep the entry or scale it by the slope; the
    narrowing after it is the identity on extended reals. -/
theorem lrelu_apply (v : FVec Ideal S5000x64 .f32) (j : S5000x64.Idx) :
    (truncf .bf16 (select (cmpf .oge v (broadcast S5000x64 (Scalar.ofBits .f32 0x00000000#32))) v
        (mulf (broadcast S5000x64 (Scalar.ofBits .f32 0x3E4CCCCD#32)) v)) bitsLt_bf16_f32 : FVec Ideal S5000x64 .bf16) j
      = Cert.Spec.lrelu (v j) := rfl

/-- One dense layer of a block at entry (p, q): row p times column q of the weight matrix, plus entry q of the bias
    row (the bias row is repeated down the 5000 rows; the matrix and the row pass through identity reshapes and a
    narrowing that changes nothing). -/
theorem dense_apply (x : FVec Ideal S5000x64 .bf16) (w : Vec Ideal S64x64 .f32) (b : Vec Ideal S1x64 .f32)
    (p : Fin 5000) (q : Fin 64) :
    (addf (matmul dot_S5000x64_S64x64_S5000x64_1_0_0_1_n_n none x
        (truncf .bf16 (shapeCast S64x64 w shapeCasts_S64x64_S64x64) bitsLt_bf16_f32 : FVec Ideal S64x64 .bf16)
        (constant S5000x64 .f32 0x00000000#32))
      (broadcastTo S5000x64 (shapeCast S1x64 b shapeCasts_S1x64_S1x64) broadcasts_S1x64_S5000x64) : FVec Ideal S5000x64 .f32) (ix2 p q)
      = Cert.Spec.dense (fun k => x (ix2 p k)) w b q := by
  rw [addf_apply, prod_apply, shapeCast_self, shapeCast_self]
  rw [broadcastTo_apply b broadcasts_S1x64_S5000x64 (ix2 p q) (ix2 0 q) (fun a => by
    match a with
    | ⟨0, _⟩ => rfl
    | ⟨1, _⟩ => rfl)]
  rfl

/-- The body's result at entry (p, q) of a block is the pooled row of row p of the block at feature q: rectify, dense
    layer A, rectify, dense layer B. -/
theorem pay_apply (x0 : Vec Ideal S5000x64 .f32) (wa : Vec Ideal S64x64 .f32) (ba : Vec Ideal S1x64 .f32)
    (wb : Vec Ideal S64x64 .f32) (bb : Vec Ideal S1x64 .f32) (p : Fin 5000) (q : Fin 64) :
    k0_pay1 x0 wa ba wb bb (ix2 p q) = Cert.Spec.poolRow (fun k => x0 (ix2 p k)) wa ba wb bb q := by
  unfold k0_pay1
  refine (dense_apply _ wb bb p q).trans ?_
  unfold Cert.Spec.poolRow
  refine congrArg (fun f => Cert.Spec.dense f wb bb q) (funext fun k => ?_)
  refine (lrelu_apply _ (ix2 p k)).trans (congrArg Cert.Spec.lrelu ?_)
  refine (dense_apply _ wa ba p k).trans ?_
  exact congrArg (fun f => Cert.Spec.dense f wa ba k) (funext fun k' => lrelu_apply x0 (ix2 p k'))

/-! ## From the blocks to the array -/

/-- The body reads and writes whole blocks: both offsets are zero. -/
theorem zero_offsets : (![0, 0] : Fin 2 → Nat) = fun _ => 0 := funext fun a => by fin_cases a <;> rfl

/-- Which block each window is on at point t: the feature and result windows on row-block t, the weight and bias
    windows on their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/- The TensorCore's buffer contents when the region is entered: any. -/
variable (V : (c : Dev nD) → (b : Ref sig .tc) → Buf (Elt Ideal) ((c : Thread nD τ).loc b))

/-- What point t writes back is block t of the pooled array: entry (p, q) of the block is the pooled row of row
    5000·t + p of the features, because row p of feature block t is that row and the other windows are the whole
    weight matrices and bias rows. -/
theorem flushed_eq (c : Dev nD) (t : Fin cfg0.N) :
    (dat0 (F := Ideal) V c).flushed 5 t = ((cfg0.win 5).blk t).view.read (Elt Ideal)
      (Cert.Spec.pool (V c main_arg0) (V c main_v0) (V c main_v2) (V c main_v1) (V c main_v3)) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x64) zero_offsets, View.ld_unit_zero (S := S1x64) zero_offsets]
  funext j
  obtain ⟨p, q, rfl⟩ : ∃ (p : Fin 5000) (q : Fin 64), j = ix2 p q := ⟨j 0, j 1, eq_ix2 j⟩
  refine (pay_apply _ _ _ _ _ p q).trans ?_
  obtain ⟨e00, e01, e10, e11, e20, e21, e30, e31, e40, e41, e50, e51⟩ := block_indices t
  have ht : t.val < 10 := t.isLt
  have hp : p.val < 5000 := p.isLt
  obtain ⟨r, hr⟩ : ∃ r : Fin 50000, r.val = t.val * 5000 + p.val := ⟨⟨t.val * 5000 + p.val, by omega⟩, rfl⟩
  have wA : (iblk0 V c 1 t : S64x64.Idx → EReal) = V c main_v0 := funext fun y => by
    show V c main_v0 (((cfg0.win 1).blk t).view.emb y) = V c main_v0 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  have bA : (iblk0 V c 2 t : S1x64.Idx → EReal) = V c main_v2 := funext fun y => by
    show V c main_v2 (((cfg0.win 2).blk t).view.emb y) = V c main_v2 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  have wB : (iblk0 V c 3 t : S64x64.Idx → EReal) = V c main_v1 := funext fun y => by
    show V c main_v1 (((cfg0.win 3).blk t).view.emb y) = V c main_v1 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  have bB : (iblk0 V c 4 t : S1x64.Idx → EReal) = V c main_v3 := funext fun y => by
    show V c main_v3 (((cfg0.win 4).blk t).view.emb y) = V c main_v3 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  have xA : (fun k : Fin 64 => iblk0 V c 0 t (ix2 p k)) = fun k => V c main_arg0 (ix2 r k) := funext fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = r.val; omega
    | ⟨1, _⟩ => show win0_0.index t (1 : Fin 2) * 64 + 1 * k.val = k.val; omega
  have oA : ((cfg0.win 5).blk t).view.emb (ix2 p q) = ix2 r q := funext fun a => Fin.ext (by
    match a with
    | ⟨0, _⟩ => show win0_5.index t (0 : Fin 2) * 5000 + 1 * p.val = r.val; omega
    | ⟨1, _⟩ => show win0_5.index t (1 : Fin 2) * 64 + 1 * q.val = q.val; omega)
  show _ = Cert.Spec.pool _ _ _ _ _ (((cfg0.win 5).blk t).view.emb (ix2 p q))
  rw [oA, xA, wA, bA, wB, bB]
  rfl

/-- An entry of the result array is in point t's block iff each coordinate is in the block's range on its axis. -/
theorem mem_block (t : Fin cfg0.N) (i : S50000x64.Idx) :
    i ∈ ((cfg0.win 5).blk t).view.set
      ↔ ∀ a : Fin 2, win0_5.index t a * S5000x64.size a ≤ (i a).val ∧ (i a).val < win0_5.index t a * S5000x64.size a + S5000x64.size a := by
  show i ∈ ((View.whole main_v4).slice (win0_5.rect t)).set ↔ _
  rw [View.set_slice_whole, Rect.mem_set_unit]
  exact Iff.rfl

/-- Row r lies in the block of point r / 5000, and every point writes its block back: the blocks cover the array. -/
theorem covered (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ : ∃ t : Fin cfg0.N, t.val = (i 0).val / 5000 := ⟨⟨(i 0).val / 5000, by show _ < 10; omega⟩, rfl⟩
  obtain ⟨-, -, -, -, -, -, -, -, -, -, e50, e51⟩ := block_indices t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- After the node-pooling region the result array holds every node's pooled row, as one function of the arrays the
    region found: the node features, the two transposed weight matrices and the two bias rows. -/
theorem pool_arr (c : Dev nD) :
    (dat0 (F := Ideal) V c).arrAt 5 cfg0.N
      = Cert.Spec.pool (V c main_arg0) (V c main_v0) (V c main_v2) (V c main_v1) (V c main_v3) := by
  exact (dat0 (F := Ideal) V c).arrAt_eq_of_cover 5
    (Cert.Spec.pool (V c main_arg0) (V c main_v0) (V c main_v2) (V c main_v1) (V c main_v3))
    (fun t _ => flushed_eq V c t) covered

end Cert.KernelIdeal.Pool

end
-- ==== Proof.K1.lean ====
/-
  The edge region of the layer. For every edge r, from its feature row e = E[r, ·] and the pooled row v = V[r, ·] of its
  source node, the region computes the hidden row
      h = relu (relu (e · W1 + b1) · W2 + b2),
  the message
      m = sigmoid (h · WB + bB) * v + (h · WC + bC),
  and its square m * m, the weight matrices being the transposed ones (entry (k, j) multiplies input feature k into
  output feature j) and each bias a 1 × 64 row. The region walks the 800000 edges in a hundred blocks of 8000 rows:
  at point t the edge features, the pooled rows and both results hold rows 8000 t … 8000 t + 7999 and all 64 features,
  while the four weight matrices and the four bias rows are whole at every point.

  The proof has three parts. First the arithmetic at one entry: a product of a block with a weight matrix into the zero
  accumulator is, at entry (p, q), the sum over the contracted feature k of x[p, k] · w[k, q]; with the bias row spread
  over the rows added it is the dense layer of ROW p; the format changes are the identity on extended reals and the
  reshapes keep the shape; so the hidden block, the gate block and the message block at entry (p, q) are the hidden
  row, the gate and the message of row p. Second the blocks as parts of the arrays: entry (p, k) of a row block at
  point t is entry (8000 t + p, k) of its array, and a weight or bias block is its whole array; hence what a point
  writes back is its block of ONE whole-array function of the ten operand arrays. Third the hundred blocks tile each
  result (edge r lies in the block of point r / 8000, and every point writes back), so each result array is that
  function: the messages, and the squared messages.
-/
import proofs.«160303_j52123723105097_1_alg».proof.Proof.Gen.KernelIdeal.Frame
import proofs.«160303_j52123723105097_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Msg

open Cert.KernelIdeal Cert.KernelIdeal.Gen Idealize.ShloMosaic Idealize.ShloMosaic.TcCoe Idealize.SL.Sem
open Idealize.ShloMosaic.ValueIdx
open Idealize.ShloMosaic.Pipeline (Dat)

/- The TensorCore's buffer contents when the region is entered: any. -/
variable (V : (c : Dev nD) → (b : Ref sig .tc) → Buf (Elt Ideal) ((c : Thread nD τ).loc b))

/-! ## A product of a block with a weight matrix, read at an entry -/

/-- The left operand's index keeps the result's row … -/
theorem lhs_row (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- … and runs over the contracted feature; -/
theorem lhs_col (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- the right operand's index runs over the contracted feature … -/
theorem rhs_row (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- … and keeps the result's column. -/
theorem rhs_col (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The product into the zero accumulator at entry (p, q): Σ_k x[p, k] · w[k, q]. -/
theorem matmul_entry {φ₁ φ₂ : FTy} (x : FVec Ideal S8000x64 φ₁) (w : FVec Ideal S64x64 φ₂) (p : Fin 8000) (q : Fin 64) :
    matmul dot_S8000x64_S64x64_S8000x64_1_0_0_1_n_n none x w (constant S8000x64 .f32 0x00000000#32) (ix2 p q)
      = ∑ k : Fin 64, x (ix2 p k) * w (ix2 k q) := by
  refine (Ideal.matmul_constant_zero_apply dot_S8000x64_S64x64_S8000x64_1_0_0_1_n_n none x w (ix2 p q)).trans ?_
  rw [← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact lhs_row _ _
    | ⟨1, _⟩ => exact (lhs_col _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- A bias row spread over the block's rows reads the bias at the column. -/
theorem bias_entry (b : Vec Ideal S1x64 .f32) (p : Fin 8000) (q : Fin 64) :
    broadcastTo S8000x64 b broadcasts_S1x64_S8000x64 (ix2 p q) = b (ix2 0 q) := by
  refine broadcastTo_apply b broadcasts_S1x64_S8000x64 (ix2 p q) (ix2 0 q) fun a => ?_
  match a with
  | ⟨0, _⟩ => rfl
  | ⟨1, _⟩ => rfl

/-- ONE DENSE LAYER ON A BLOCK: the product with the weight matrix into zero plus the spread bias row, at entry (p, q), is
    the dense layer of row p at output feature q. -/
theorem dense_entry {φ₁ : FTy} (x : FVec Ideal S8000x64 φ₁) (w : Vec Ideal S64x64 .f32) (b : Vec Ideal S1x64 .f32) (p : Fin 8000) (q : Fin 64) :
    addf (matmul dot_S8000x64_S64x64_S8000x64_1_0_0_1_n_n none x (truncf .bf16 (shapeCast S64x64 w shapeCasts_S64x64_S64x64) bitsLt_bf16_f32) (constant S8000x64 .f32 0x00000000#32))
        (broadcastTo S8000x64 (shapeCast S1x64 b shapeCasts_S1x64_S1x64) broadcasts_S1x64_S8000x64) (ix2 p q)
      = Cert.Spec.dense (fun k => x (ix2 p k)) w b q := by
  rw [shapeCast_self, shapeCast_self]
  show matmul dot_S8000x64_S64x64_S8000x64_1_0_0_1_n_n none x (truncf .bf16 w bitsLt_bf16_f32) (constant S8000x64 .f32 0x00000000#32) (ix2 p q) + broadcastTo S8000x64 b broadcasts_S1x64_S8000x64 (ix2 p q) = _
  rw [matmul_entry, bias_entry]
  rfl

/-! ## The body's payloads at an entry -/

/-- A dense layer on a block followed by the rectifier, as the body computes it (the narrowing of formats is the
    identity on extended reals). -/
def reluLayer {φ₁ : FTy} (x : FVec Ideal S8000x64 φ₁) (w : Vec Ideal S64x64 .f32) (b : Vec Ideal S1x64 .f32) : FVec Ideal S8000x64 .bf16 :=
  truncf .bf16 (maximumf (addf (matmul dot_S8000x64_S64x64_S8000x64_1_0_0_1_n_n none x (truncf .bf16 (shapeCast S64x64 w shapeCasts_S64x64_S64x64) bitsLt_bf16_f32) (constant S8000x64 .f32 0x00000000#32))
      (broadcastTo S8000x64 (shapeCast S1x64 b shapeCasts_S1x64_S1x64) broadcasts_S1x64_S8000x64)) (broadcast S8000x64 (Scalar.ofBits .f32 0x00000000#32))) bitsLt_bf16_f32

/-- At entry (p, q) it is the rectified dense layer of row p. -/
theorem reluLayer_entry {φ₁ : FTy} (x : FVec Ideal S8000x64 φ₁) (w : Vec Ideal S64x64 .f32) (b : Vec Ideal S1x64 .f32) (p : Fin 8000) (q : Fin 64) :
    reluLayer x w b (ix2 p q) = Cert.Spec.relu (Cert.Spec.dense (fun k => x (ix2 p k)) w b q) :=
  congrArg (fun z => max z Cert.Spec.zero) (dense_entry x w b p q)

/-- The hidden block is two such layers of the edge block. -/
theorem hidden_eq (e : Vec Ideal S8000x64 .f32) (w1 : Vec Ideal S64x64 .f32) (b1 : Vec Ideal S1x64 .f32) (w2 : Vec Ideal S64x64 .f32) (b2 : Vec Ideal S1x64 .f32) :
    k1_pay3 e w1 b1 w2 b2 = reluLayer (reluLayer (truncf .bf16 e bitsLt_bf16_f32) w1 b1) w2 b2 := rfl

/-- THE HIDDEN BLOCK at entry (p, k): the hidden row of edge p. -/
theorem hidden_entry (e : Vec Ideal S8000x64 .f32) (w1 : Vec Ideal S64x64 .f32) (b1 : Vec Ideal S1x64 .f32) (w2 : Vec Ideal S64x64 .f32) (b2 : Vec Ideal S1x64 .f32)
    (p : Fin 8000) (k : Fin 64) :
    k1_pay3 e w1 b1 w2 b2 (ix2 p k) = Cert.Spec.hidRow (fun k' => e (ix2 p k')) w1 b1 w2 b2 k := by
  rw [hidden_eq, reluLayer_entry]
  unfold Cert.Spec.hidRow
  refine congrArg (fun r => Cert.Spec.relu (Cert.Spec.dense r w2 b2 k)) (funext fun k' => ?_)
  exact reluLayer_entry _ w1 b1 p k'

/-- The gate block is the logistic function of a dense layer of the hidden block. -/
theorem gate_eq (e : Vec Ideal S8000x64 .f32) (w1 : Vec Ideal S64x64 .f32) (b1 : Vec Ideal S1x64 .f32) (w2 : Vec Ideal S64x64 .f32) (b2 : Vec Ideal S1x64 .f32)
    (wB : Vec Ideal S64x64 .f32) (bB : Vec Ideal S1x64 .f32) :
    k1_pay4 e w1 b1 w2 b2 wB bB = logistic (addf (matmul dot_S8000x64_S64x64_S8000x64_1_0_0_1_n_n none (k1_pay3 e w1 b1 w2 b2) (truncf .bf16 (shapeCast S64x64 wB shapeCasts_S64x64_S64x64) bitsLt_bf16_f32) (constant S8000x64 .f32 0x00000000#32))
      (broadcastTo S8000x64 (shapeCast S1x64 bB shapeCasts_S1x64_S1x64) broadcasts_S1x64_S8000x64)) := rfl

/-- THE GATE BLOCK at entry (p, q). -/
theorem gate_entry (e : Vec Ideal S8000x64 .f32) (w1 : Vec Ideal S64x64 .f32) (b1 : Vec Ideal S1x64 .f32) (w2 : Vec Ideal S64x64 .f32) (b2 : Vec Ideal S1x64 .f32)
    (wB : Vec Ideal S64x64 .f32) (bB : Vec Ideal S1x64 .f32) (p : Fin 8000) (q : Fin 64) :
    k1_pay4 e w1 b1 w2 b2 wB bB (ix2 p q) = Ideal.logistic (Cert.Spec.dense (Cert.Spec.hidRow (fun k' => e (ix2 p k')) w1 b1 w2 b2) wB bB q) := by
  rw [gate_eq]
  refine (congrArg Ideal.logistic (dense_entry (k1_pay3 e w1 b1 w2 b2) wB bB p q)).trans ?_
  exact congrArg (fun r => Ideal.logistic (Cert.Spec.dense r wB bB q)) (funext fun k => hidden_entry e w1 b1 w2 b2 p k)

/-- The message block from a hidden block h, a gate block g and the pooled block v: g · v plus a dense layer of h. -/
theorem message_eq (h : FVec Ideal S8000x64 .bf16) (g : FVec Ideal S8000x64 .f32) (wC : Vec Ideal S64x64 .f32) (bC : Vec Ideal S1x64 .f32) (v : Vec Ideal S8000x64 .f32) :
    k1_pay1 h g (k1_pay5 wC) bC v = addf (mulf g (shapeCast S8000x64 v shapeCasts_S8000x64_S8000x64))
      (addf (matmul dot_S8000x64_S64x64_S8000x64_1_0_0_1_n_n none h (truncf .bf16 (shapeCast S64x64 wC shapeCasts_S64x64_S64x64) bitsLt_bf16_f32) (constant S8000x64 .f32 0x00000000#32))
        (broadcastTo S8000x64 (shapeCast S1x64 bC shapeCasts_S1x64_S1x64) broadcasts_S1x64_S8000x64)) := rfl

/-- THE MESSAGE BLOCK at entry (p, q): the message of edge p at feature q. -/
theorem message_entry (e v : Vec Ideal S8000x64 .f32) (w1 : Vec Ideal S64x64 .f32) (b1 : Vec Ideal S1x64 .f32) (w2 : Vec Ideal S64x64 .f32) (b2 : Vec Ideal S1x64 .f32)
    (wB : Vec Ideal S64x64 .f32) (bB : Vec Ideal S1x64 .f32) (wC : Vec Ideal S64x64 .f32) (bC : Vec Ideal S1x64 .f32) (p : Fin 8000) (q : Fin 64) :
    k1_pay1 (k1_pay3 e w1 b1 w2 b2) (k1_pay4 e w1 b1 w2 b2 wB bB) (k1_pay5 wC) bC v (ix2 p q)
      = Cert.Spec.msgRow (fun k => e (ix2 p k)) (fun k => v (ix2 p k)) w1 b1 w2 b2 wB bB wC bC q := by
  rw [message_eq, shapeCast_self]
  show k1_pay4 e w1 b1 w2 b2 wB bB (ix2 p q) * v (ix2 p q) + addf (matmul dot_S8000x64_S64x64_S8000x64_1_0_0_1_n_n none (k1_pay3 e w1 b1 w2 b2) (truncf .bf16 (shapeCast S64x64 wC shapeCasts_S64x64_S64x64) bitsLt_bf16_f32) (constant S8000x64 .f32 0x00000000#32))
        (broadcastTo S8000x64 (shapeCast S1x64 bC shapeCasts_S1x64_S1x64) broadcasts_S1x64_S8000x64) (ix2 p q) = _
  rw [gate_entry, dense_entry]
  unfold Cert.Spec.msgRow
  exact congrArg (fun r => Ideal.logistic (Cert.Spec.dense (Cert.Spec.hidRow (fun k => e (ix2 p k)) w1 b1 w2 b2) wB bB q) * v (ix2 p q) + Cert.Spec.dense r wC bC q)
    (funext fun k => hidden_entry e w1 b1 w2 b2 p k)

/-! ## The windows' blocks as parts of the arrays -/

theorem zero_offsets : (![0, 0] : Fin 2 → Nat) = fun _ => 0 := funext fun a => by fin_cases a <;> rfl

/-- The printed index maps, decided over the hundred grid points: the edge features, the pooled rows and both results
    move by row blocks (block t at point t, the one column block), every weight matrix and bias row stays whole. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0 :=
  (by decide +kernel : ∀ t : Fin grid1.N, _)

/-- Row p of the row block at point t is row 8000 t + p of the array. -/
def rowAt (t : Fin cfg1.N) (p : Fin 8000) : Fin 800000 :=
  ⟨t.val * 8000 + p.val, by have ht : t.val < 100 := t.isLt; have hp := p.isLt; omega⟩

/-- Where entry (p, k) of the edge-feature block at point t sits in the array. -/
theorem edge_index (t : Fin cfg1.N) (p : Fin 8000) (k : Fin 64) :
    ((cfg1.win 0).blk t).view.emb (ix2 p k) = ix2 (rowAt t p) k := by
  obtain ⟨e0, e1, -⟩ := block_indices t
  funext a; apply Fin.ext
  match a with
  | ⟨0, _⟩ => show win1_0.index t (0 : Fin 2) * 8000 + 1 * p.val = t.val * 8000 + p.val; omega
  | ⟨1, _⟩ => show win1_0.index t (1 : Fin 2) * 64 + 1 * k.val = k.val; omega

/-- The pooled-row block sits at the same rows … -/
theorem pooled_index (t : Fin cfg1.N) (p : Fin 8000) (k : Fin 64) :
    ((cfg1.win 1).blk t).view.emb (ix2 p k) = ix2 (rowAt t p) k := by
  have e := block_indices t
  funext a; apply Fin.ext
  match a with
  | ⟨0, _⟩ => show win1_1.index t (0 : Fin 2) * 8000 + 1 * p.val = t.val * 8000 + p.val; omega
  | ⟨1, _⟩ => show win1_1.index t (1 : Fin 2) * 64 + 1 * k.val = k.val; omega

/-- … and so do the message block … -/
theorem message_index (t : Fin cfg1.N) (p : Fin 8000) (k : Fin 64) :
    ((cfg1.win 10).blk t).view.emb (ix2 p k) = ix2 (rowAt t p) k := by
  have e := block_indices t
  funext a; apply Fin.ext
  match a with
  | ⟨0, _⟩ => show win1_10.index t (0 : Fin 2) * 8000 + 1 * p.val = t.val * 8000 + p.val; omega
  | ⟨1, _⟩ => show win1_10.index t (1 : Fin 2) * 64 + 1 * k.val = k.val; omega

/-- … and the block of squared messages. -/
theorem square_index (t : Fin cfg1.N) (p : Fin 8000) (k : Fin 64) :
    ((cfg1.win 11).blk t).view.emb (ix2 p k) = ix2 (rowAt t p) k := by
  have e := block_indices t
  funext a; apply Fin.ext
  match a with
  | ⟨0, _⟩ => show win1_11.index t (0 : Fin 2) * 8000 + 1 * p.val = t.val * 8000 + p.val; omega
  | ⟨1, _⟩ => show win1_11.index t (1 : Fin 2) * 64 + 1 * k.val = k.val; omega

/-- The edge-feature block at point t, entry by entry. -/
theorem edge_block (c : Dev nD) (t : Fin cfg1.N) (p : Fin 8000) (k : Fin 64) :
    iblk1 V c 0 t (ix2 p k) = V c main_arg1 (ix2 (rowAt t p) k) :=
  congrArg (V c main_arg1) (edge_index t p k)

/-- The pooled-row block at point t, entry by entry. -/
theorem pooled_block (c : Dev nD) (t : Fin cfg1.N) (p : Fin 8000) (k : Fin 64) :
    iblk1 V c 1 t (ix2 p k) = V c main_v11 (ix2 (rowAt t p) k) :=
  congrArg (V c main_v11) (pooled_index t p k)

/-- At every point the first layer's weight block is the whole matrix … -/
theorem w1_block (c : Dev nD) (t : Fin cfg1.N) : iblk1 V c 2 t = V c main_v12 := by
  have e := block_indices t
  funext y
  show V c main_v12 (((cfg1.win 2).blk t).view.emb y) = V c main_v12 y
  refine congrArg (V c main_v12) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- … and its bias block the whole row; -/
theorem b1_block (c : Dev nD) (t : Fin cfg1.N) : iblk1 V c 3 t = V c main_v16 := by
  have e := block_indices t
  funext y
  show V c main_v16 (((cfg1.win 3).blk t).view.emb y) = V c main_v16 y
  refine congrArg (V c main_v16) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- the same for the second layer, -/
theorem w2_block (c : Dev nD) (t : Fin cfg1.N) : iblk1 V c 4 t = V c main_v13 := by
  have e := block_indices t
  funext y
  show V c main_v13 (((cfg1.win 4).blk t).view.emb y) = V c main_v13 y
  refine congrArg (V c main_v13) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- its bias, -/
theorem b2_block (c : Dev nD) (t : Fin cfg1.N) : iblk1 V c 5 t = V c main_v17 := by
  have e := block_indices t
  funext y
  show V c main_v17 (((cfg1.win 5).blk t).view.emb y) = V c main_v17 y
  refine congrArg (V c main_v17) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- the gate's layer, -/
theorem wB_block (c : Dev nD) (t : Fin cfg1.N) : iblk1 V c 6 t = V c main_v14 := by
  have e := block_indices t
  funext y
  show V c main_v14 (((cfg1.win 6).blk t).view.emb y) = V c main_v14 y
  refine congrArg (V c main_v14) (funext fun a => Fin.ext ?_)
  match a with
  | ⟨0, _⟩ => show win1_6.index t (0 : Fin 2) * 64 + 1 * (y 0).val = (y 0).val; omega
  | ⟨1, _⟩ => show win1_6.index t (1 : Fin 2) * 64 + 1 * (y 1).val = (y 1).val; omega

/-- its bias, -/
theorem bB_block (c : Dev nD) (t : Fin cfg1.N) : iblk1 V c 7 t = V c main_v18 := by
  have e := block_indices t
  funext y
  show V c main_v18 (((cfg1.win 7).blk t).view.emb y) = V c main_v18 y
  refine congrArg (V c main_v18) (funext fun a => Fin.ext ?_)
  match a with
  | ⟨0, _⟩ => show win1_7.index t (0 : Fin 2) * 1 + 1 * (y 0).val = (y 0).val; omega
  | ⟨1, _⟩ => show win1_7.index t (1 : Fin 2) * 64 + 1 * (y 1).val = (y 1).val; omega

/-- the offset's layer -/
theorem wC_block (c : Dev nD) (t : Fin cfg1.N) : iblk1 V c 8 t = V c main_v15 := by
  have e := block_indices t
  funext y
  show V c main_v15 (((cfg1.win 8).blk t).view.emb y) = V c main_v15 y
  refine congrArg (V c main_v15) (funext fun a => Fin.ext ?_)
  match a with
  | ⟨0, _⟩ => show win1_8.index t (0 : Fin 2) * 64 + 1 * (y 0).val = (y 0).val; omega
  | ⟨1, _⟩ => show win1_8.index t (1 : Fin 2) * 64 + 1 * (y 1).val = (y 1).val; omega

/-- and its bias. -/
theorem bC_block (c : Dev nD) (t : Fin cfg1.N) : iblk1 V c 9 t = V c main_v19 := by
  have e := block_indices t
  funext y
  show V c main_v19 (((cfg1.win 9).blk t).view.emb y) = V c main_v19 y
  refine congrArg (V c main_v19) (funext fun a => Fin.ext ?_)
  match a with
  | ⟨0, _⟩ => show win1_9.index t (0 : Fin 2) * 1 + 1 * (y 0).val = (y 0).val; omega
  | ⟨1, _⟩ => show win1_9.index t (1 : Fin 2) * 64 + 1 * (y 1).val = (y 1).val; omega

/-! ## What a point writes back -/

/-- The message block a point writes back is its block of the whole array of messages: row p of the block is edge
    8000 t + p, whose feature row and pooled row are row p of the two operand blocks. -/
theorem flushed_msg (c : Dev nD) (t : Fin cfg1.N) :
    (dat1 (F := Ideal) V c).flushed 10 t
      = ((cfg1.win 10).blk t).view.read (Elt Ideal) (Cert.Spec.msg (V c main_arg1) (V c main_v11) (V c main_v12) (V c main_v16) (V c main_v13) (V c main_v17) (V c main_v14) (V c main_v18) (V c main_v15) (V c main_v19)) := by
  show (cfg1.win 10).cut (grid1.coords t) ((dat1 (F := Ideal) V c).after 10 t) = _
  rw [after1_10]
  unfold out1_10
  rw [View.canon_unit_zero zero_offsets]
  simp only [View.ld_unit_zero (S := S8000x64) zero_offsets, View.ld_unit_zero (S := S64x64) zero_offsets, View.ld_unit_zero (S := S1x64) zero_offsets]
  rw [w1_block, b1_block, w2_block, b2_block, wB_block, bB_block, wC_block, bC_block]
  funext j
  obtain ⟨p, q, rfl⟩ : ∃ (p : Fin 8000) (q : Fin 64), j = ix2 p q := ⟨j 0, j 1, eq_ix2 j⟩
  show k1_pay1 (k1_pay3 (iblk1 V c 0 t) (V c main_v12) (V c main_v16) (V c main_v13) (V c main_v17)) (k1_pay4 (iblk1 V c 0 t) (V c main_v12) (V c main_v16) (V c main_v13) (V c main_v17) (V c main_v14) (V c main_v18)) (k1_pay5 (V c main_v15)) (V c main_v19) (iblk1 V c 1 t) (ix2 p q)
      = Cert.Spec.msg (V c main_arg1) (V c main_v11) (V c main_v12) (V c main_v16) (V c main_v13) (V c main_v17) (V c main_v14) (V c main_v18) (V c main_v15) (V c main_v19) (((cfg1.win 10).blk t).view.emb (ix2 p q))
  rw [message_index]
  refine (message_entry _ _ _ _ _ _ _ _ _ _ p q).trans ?_
  simp only [edge_block, pooled_block]
  rfl

/-- The block of squares a point writes back is its block of the whole array of squared messages. -/
theorem flushed_sq (c : Dev nD) (t : Fin cfg1.N) :
    (dat1 (F := Ideal) V c).flushed 11 t
      = ((cfg1.win 11).blk t).view.read (Elt Ideal) (Cert.Spec.msgSq (V c main_arg1) (V c main_v11) (V c main_v12) (V c main_v16) (V c main_v13) (V c main_v17) (V c main_v14) (V c main_v18) (V c main_v15) (V c main_v19)) := by
  show (cfg1.win 11).cut (grid1.coords t) ((dat1 (F := Ideal) V c).after 11 t) = _
  rw [after1_11]
  unfold out1_11
  rw [View.canon_unit_zero zero_offsets]
  simp only [View.ld_unit_zero (S := S8000x64) zero_offsets, View.ld_unit_zero (S := S64x64) zero_offsets, View.ld_unit_zero (S := S1x64) zero_offsets]
  rw [w1_block, b1_block, w2_block, b2_block, wB_block, bB_block, wC_block, bC_block]
  funext j
  obtain ⟨p, q, rfl⟩ : ∃ (p : Fin 8000) (q : Fin 64), j = ix2 p q := ⟨j 0, j 1, eq_ix2 j⟩
  show k1_pay1 (k1_pay3 (iblk1 V c 0 t) (V c main_v12) (V c main_v16) (V c main_v13) (V c main_v17)) (k1_pay4 (iblk1 V c 0 t) (V c main_v12) (V c main_v16) (V c main_v13) (V c main_v17) (V c main_v14) (V c main_v18)) (k1_pay5 (V c main_v15)) (V c main_v19) (iblk1 V c 1 t) (ix2 p q) * k1_pay1 (k1_pay3 (iblk1 V c 0 t) (V c main_v12) (V c main_v16) (V c main_v13) (V c main_v17)) (k1_pay4 (iblk1 V c 0 t) (V c main_v12) (V c main_v16) (V c main_v13) (V c main_v17) (V c main_v14) (V c main_v18)) (k1_pay5 (V c main_v15)) (V c main_v19) (iblk1 V c 1 t) (ix2 p q)
      = Cert.Spec.msgSq (V c main_arg1) (V c main_v11) (V c main_v12) (V c main_v16) (V c main_v13) (V c main_v17) (V c main_v14) (V c main_v18) (V c main_v15) (V c main_v19) (((cfg1.win 11).blk t).view.emb (ix2 p q))
  rw [square_index]
  unfold Cert.Spec.msgSq
  have h : k1_pay1 (k1_pay3 (iblk1 V c 0 t) (V c main_v12) (V c main_v16) (V c main_v13) (V c main_v17)) (k1_pay4 (iblk1 V c 0 t) (V c main_v12) (V c main_v16) (V c main_v13) (V c main_v17) (V c main_v14) (V c main_v18)) (k1_pay5 (V c main_v15)) (V c main_v19) (iblk1 V c 1 t) (ix2 p q) = Cert.Spec.msg (V c main_arg1) (V c main_v11) (V c main_v12) (V c main_v16) (V c main_v13) (V c main_v17) (V c main_v14) (V c main_v18) (V c main_v15) (V c main_v19) (ix2 (rowAt t p) q) := by
    refine (message_entry _ _ _ _ _ _ _ _ _ _ p q).trans ?_
    simp only [edge_block, pooled_block]
    rfl
  rw [h]

/-! ## The hundred blocks tile each result -/

/-- An entry of the message array is in a point's block iff each coordinate is in the block's range on its axis. -/
theorem mem_msg_block (t : Fin cfg1.N) (i : S800000x64.Idx) :
    i ∈ ((cfg1.win 10).blk t).view.set
      ↔ ∀ a : Fin 2, win1_10.index t a * S8000x64.size a ≤ (i a).val ∧ (i a).val < win1_10.index t a * S8000x64.size a + S8000x64.size a := by
  show i ∈ ((View.whole main_v20_0).slice (win1_10.rect t)).set ↔ _
  rw [View.set_slice_whole, Rect.mem_set_unit]
  exact Iff.rfl

/-- The same for the array of squares. -/
theorem mem_sq_block (t : Fin cfg1.N) (i : S800000x64.Idx) :
    i ∈ ((cfg1.win 11).blk t).view.set
      ↔ ∀ a : Fin 2, win1_11.index t a * S8000x64.size a ≤ (i a).val ∧ (i a).val < win1_11.index t a * S8000x64.size a + S8000x64.size a := by
  show i ∈ ((View.whole main_v20_1).slice (win1_11.rect t)).set ↔ _
  rw [View.set_slice_whole, Rect.mem_set_unit]
  exact Iff.rfl

/-- Edge r lies in the block of point r / 8000, and every point writes its block back. -/
theorem msg_cover (i : S800000x64.Idx) :
    ∃ t : Fin cfg1.N, (cfg1.win 10).flush t = true ∧ i ∈ ((cfg1.win 10).blk t).view.set := by
  have hi0 : (i 0).val < 800000 := (i 0).isLt
  have hi1 : (i 1).val < 64 := (i 1).isLt
  have hN : (i 0).val / 8000 < cfg1.N := by show _ < 100; omega
  have e := block_indices ⟨(i 0).val / 8000, hN⟩
  have e0 : win1_10.index ⟨(i 0).val / 8000, hN⟩ (0 : Fin 2) = (i 0).val / 8000 := by
    obtain ⟨-, -, -, -, -, -, -, -, -, -, -, -, -, -, -, -, -, -, -, -, h, -⟩ := e; exact h
  have e1 : win1_10.index ⟨(i 0).val / 8000, hN⟩ (1 : Fin 2) = 0 := by
    obtain ⟨-, -, -, -, -, -, -, -, -, -, -, -, -, -, -, -, -, -, -, -, -, h, -⟩ := e; exact h
  refine ⟨⟨(i 0).val / 8000, hN⟩, flush1_10 _, ?_⟩
  rw [mem_msg_block]
  intro a
  match a with
  | ⟨0, _⟩ =>
    show win1_10.index ⟨(i 0).val / 8000, hN⟩ (0 : Fin 2) * 8000 ≤ (i 0).val
      ∧ (i 0).val < win1_10.index ⟨(i 0).val / 8000, hN⟩ (0 : Fin 2) * 8000 + 8000
    omega
  | ⟨1, _⟩ =>
    show win1_10.index ⟨(i 0).val / 8000, hN⟩ (1 : Fin 2) * 64 ≤ (i 1).val
      ∧ (i 1).val < win1_10.index ⟨(i 0).val / 8000, hN⟩ (1 : Fin 2) * 64 + 64
    omega

/-- The same for the array of squares. -/
theorem sq_cover (i : S800000x64.Idx) :
    ∃ t : Fin cfg1.N, (cfg1.win 11).flush t = true ∧ i ∈ ((cfg1.win 11).blk t).view.set := by
  have hi0 : (i 0).val < 800000 := (i 0).isLt
  have hi1 : (i 1).val < 64 := (i 1).isLt
  have hN : (i 0).val / 8000 < cfg1.N := by show _ < 100; omega
  have e := block_indices ⟨(i 0).val / 8000, hN⟩
  have e0 : win1_11.index ⟨(i 0).val / 8000, hN⟩ (0 : Fin 2) = (i 0).val / 8000 := by
    obtain ⟨-, -, -, -, -, -, -, -, -, -, -, -, -, -, -, -, -, -, -, -, -, -, h, -⟩ := e; exact h
  have e1 : win1_11.index ⟨(i 0).val / 8000, hN⟩ (1 : Fin 2) = 0 := by
    obtain ⟨-, -, -, -, -, -, -, -, -, -, -, -, -, -, -, -, -, -, -, -, -, -, -, h⟩ := e; exact h
  refine ⟨⟨(i 0).val / 8000, hN⟩, flush1_11 _, ?_⟩
  rw [mem_sq_block]
  intro a
  match a with
  | ⟨0, _⟩ =>
    show win1_11.index ⟨(i 0).val / 8000, hN⟩ (0 : Fin 2) * 8000 ≤ (i 0).val
      ∧ (i 0).val < win1_11.index ⟨(i 0).val / 8000, hN⟩ (0 : Fin 2) * 8000 + 8000
    omega
  | ⟨1, _⟩ =>
    show win1_11.index ⟨(i 0).val / 8000, hN⟩ (1 : Fin 2) * 64 ≤ (i 1).val
      ∧ (i 1).val < win1_11.index ⟨(i 0).val / 8000, hN⟩ (1 : Fin 2) * 64 + 64
    omega

/-! ## The arrays the region leaves -/

/-- After the edge region its first result array holds every edge's message, as one function of the arrays the region
    found: the edge features, the gathered pooled rows, the four transposed weight matrices and the four bias rows. -/
theorem msg_arr (c : Dev nD) :
    (dat1 (F := Ideal) V c).arrAt 10 cfg1.N
      = Cert.Spec.msg (V c main_arg1) (V c main_v11) (V c main_v12) (V c main_v16) (V c main_v13) (V c main_v17)
          (V c main_v14) (V c main_v18) (V c main_v15) (V c main_v19) :=
  (dat1 (F := Ideal) V c).arrAt_eq_of_cover 10 (Cert.Spec.msg (V c main_arg1) (V c main_v11) (V c main_v12) (V c main_v16) (V c main_v13) (V c main_v17) (V c main_v14) (V c main_v18) (V c main_v15) (V c main_v19))
    (fun t _ => flushed_msg V c t) msg_cover

/-- And its second result array the squared messages. -/
theorem msgSq_arr (c : Dev nD) :
    (dat1 (F := Ideal) V c).arrAt 11 cfg1.N
      = Cert.Spec.msgSq (V c main_arg1) (V c main_v11) (V c main_v12) (V c main_v16) (V c main_v13) (V c main_v17)
          (V c main_v14) (V c main_v18) (V c main_v15) (V c main_v19) :=
  (dat1 (F := Ideal) V c).arrAt_eq_of_cover 11 (Cert.Spec.msgSq (V c main_arg1) (V c main_v11) (V c main_v12) (V c main_v16) (V c main_v13) (V c main_v17) (V c main_v14) (V c main_v18) (V c main_v15) (V c main_v19))
    (fun t _ => flushed_sq V c t) sq_cover

end Cert.KernelIdeal.Msg

end
-- ==== Proof.K2.lean ====
/-
  The last region of the layer: from the segment sums a = Σ m and b = Σ m² of the messages and the in-degree d
  (broadcast along the features), every entry of the result is
      sqrt (max (b / max d 1 - a / max d 1) 0 + eps).
  The region walks the 50000 node rows in ten blocks of 5000 rows; the three operands and the result move together,
  block t holding rows 5000 t … 5000 t + 4999 and all 64 features. The arithmetic is entry by entry, so the block a
  point writes back is that block of ONE whole-array function of the three operand arrays, and the ten blocks tile
  the result: the array the region leaves is that function.
-/
import proofs.«160303_j52123723105097_1_alg».proof.Proof.Gen.KernelIdeal.Frame
import proofs.«160303_j52123723105097_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Fin

open Cert.KernelIdeal Cert.KernelIdeal.Gen Idealize.ShloMosaic Idealize.ShloMosaic.TcCoe Idealize.SL.Sem
open Idealize.ShloMosaic.ValueIdx
open Idealize.ShloMosaic.Pipeline (Dat)

/- The TensorCore's buffer contents when the region is entered: any. -/
variable (V : (c : Dev nD) → (b : Ref sig .tc) → Buf (Elt Ideal) ((c : Thread nD τ).loc b))

/-! ## The arithmetic, entry by entry -/

/-- The block's offset inside its staging buffer is zero on both axes. -/
theorem origin : (![0, 0] : Fin 2 → Nat) = fun _ => 0 := funext fun a => by fin_cases a <;> rfl

/-- At one entry the body's arithmetic is the layer's value from the three operands' entries there: the three
    reshapes keep the shape, every other operation acts entry by entry, and the constants are the same words. -/
theorem pay_apply (a b d : Vec Ideal S5000x64 .f32) (j : S5000x64.Idx) :
    k2_pay1 (F := Ideal) a b d j = Cert.Spec.fin (a j) (b j) (d j) := by
  unfold k2_pay1 Cert.Spec.fin
  simp only [shapeCast_self]
  rfl

/-! ## The blocks move together -/

/-- The four index maps, over the ten points: block t on the row axis, block 0 on the feature axis. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What a point writes back is its block of the layer's value of the three operand arrays. -/
theorem flushed_eq (c : Dev nD) (t : Fin cfg2.N) :
    (dat2 (F := Ideal) V c).flushed 3 t
      = ((cfg2.win 3).blk t).view.read (Elt Ideal) (Cert.Spec.final (V c main_v27) (V c main_v30) (V c main_v32)) := by
  show (cfg2.win 3).cut (grid2.coords t) ((dat2 (F := Ideal) V c).after 3 t) = _
  rw [after2_3]
  unfold out2_3
  rw [View.canon_unit_zero origin]
  simp only [View.ld_unit_zero (S := S5000x64) origin]
  obtain ⟨e00, e01, e10, e11, e20, e21, e30, e31⟩ := index_maps t
  funext j
  show k2_pay1 (F := Ideal) (iblk2 V c 0 t) (iblk2 V c 1 t) (iblk2 V c 2 t) j
      = Cert.Spec.final (V c main_v27) (V c main_v30) (V c main_v32) (((cfg2.win 3).blk t).view.emb j)
  refine (pay_apply _ _ _ j).trans ?_
  show Cert.Spec.fin (V c main_v27 (((cfg2.win 0).blk t).view.emb j)) (V c main_v30 (((cfg2.win 1).blk t).view.emb j))
        (V c main_v32 (((cfg2.win 2).blk t).view.emb j))
      = Cert.Spec.fin (V c main_v27 (((cfg2.win 3).blk t).view.emb j)) (V c main_v30 (((cfg2.win 3).blk t).view.emb j))
        (V c main_v32 (((cfg2.win 3).blk t).view.emb j))
  -- each operand's block sits where the result's does: row 5000 t + j₀, feature j₁
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 64 + 1 * (j 1).val = win2_3.index t (1 : Fin 2) * 64 + 1 * (j 1).val; omega
  have h2 : ((cfg2.win 2).blk t).view.emb j = ((cfg2.win 3).blk t).view.emb j := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 64 + 1 * (j 1).val = win2_3.index t (1 : Fin 2) * 64 + 1 * (j 1).val; omega
  rw [h0, h1, h2]

/-! ## The ten blocks tile the result -/

/-- An entry of the array is in a point's block iff each coordinate is in the block's range on its axis. -/
theorem mem_blk (t : Fin cfg2.N) (i : S50000x64.Idx) :
    i ∈ ((cfg2.win 3).blk t).view.set
      ↔ ∀ a : Fin 2, win2_3.index t a * S5000x64.size a ≤ (i a).val ∧ (i a).val < win2_3.index t a * S5000x64.size a + S5000x64.size a := by
  show i ∈ ((View.whole main_v33).slice (win2_3.rect t)).set ↔ _
  rw [View.set_slice_whole, Rect.mem_set_unit]
  exact Iff.rfl

/-- Row r lies in the block of point r / 5000, and every point writes its block back. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : (i 0).val / 5000 < cfg2.N := by show _ < 10; omega
  obtain ⟨-, -, -, -, -, -, e0, e1⟩ := index_maps ⟨(i 0).val / 5000, hN⟩
  have e0' : win2_3.index ⟨(i 0).val / 5000, hN⟩ (0 : Fin 2) = (i 0).val / 5000 := e0
  refine ⟨⟨(i 0).val / 5000, hN⟩, flush2_3 _, ?_⟩
  rw [mem_blk]
  intro a
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    omega
  | ⟨1, _⟩ =>
    show win2_3.index ⟨(i 0).val / 5000, hN⟩ (1 : Fin 2) * 64 ≤ (i 1).val
      ∧ (i 1).val < win2_3.index ⟨(i 0).val / 5000, hN⟩ (1 : Fin 2) * 64 + 64
    omega

/-! ## The array the region leaves -/

/-- After the last region the result array holds, entry by entry, the layer's value from the two segment-sum arrays
    and the broadcast in-degree array the region found. -/
theorem final_arr (c : Dev nD) :
    (dat2 (F := Ideal) V c).arrAt 3 cfg2.N = Cert.Spec.final (V c main_v27) (V c main_v30) (V c main_v32) :=
  (dat2 (F := Ideal) V c).arrAt_eq_of_cover 3 (Cert.Spec.final (V c main_v27) (V c main_v30) (V c main_v32))
    (fun t _ => flushed_eq V c t) cover

end Cert.KernelIdeal.Fin

end
-- ==== Proof.KChain.lean ====
/-
  The idealized kernel's result as ONE term of its sixteen launch arrays.
  @main is three kernel regions among host operations. Region 0 turns the node features into pooled rows; the host
  gathers, for every edge, its source node's pooled row; region 1 turns edge features and gathered rows into messages and
  squared messages; the host sums both onto the destination nodes and counts the in-degree; region 2 combines the three
  entrywise. Reading the buffer contents boundary by boundary — a host stretch applies its operations to what the
  previous boundary holds, a region leaves its specification's function of what it found — gives the composed term
  'result'. The gather and the scatter-adds stay the operations they are: both programs apply the same ones.
-/
import proofs.«160303_j52123723105097_1_alg».proof.Proof.KLaunch
import proofs.«160303_j52123723105097_1_alg».proof.Proof.Spec
import proofs.«160303_j52123723105097_1_alg».proof.Proof.K0
import proofs.«160303_j52123723105097_1_alg».proof.Proof.K1
import proofs.«160303_j52123723105097_1_alg».proof.Proof.K2
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The operations the programs apply outside the kernels, named once -/

/-- A weight matrix transposed. -/
def T (x : S64x64.Idx → EReal) : S64x64.Idx → EReal := transpose S64x64 [1, 0] x transposes_S64x64_S64x64_1_0
/-- A bias vector as a 1 × 64 row. -/
def Rs (x : S64.Idx → EReal) : S1x64.Idx → EReal := shapeCast S1x64 x shapeCasts_S64_S1x64
/-- The source ids, a negative one moved up by the number of nodes, as a column of gather indices. -/
def gidx (x2 : S800000.Idx → BitVec 32) : S800000x1.Idx → BitVec 32 :=
  broadcastInDim S800000x1 ![0] bcast_S800000_S800000x1_0
    (select (cmpi .slt x2 (broadcastInDim S800000 ![] bcast_S_S800000 (constantI S_ 32 0#32)))
      (addi x2 (broadcastInDim S800000 ![] bcast_S_S800000 (constantI S_ 32 50000#32))) x2)
/-- The destination ids as a column of scatter indices. -/
def sidx (x3 : S800000.Idx → BitVec 32) : S800000x1.Idx → BitVec 32 :=
  broadcastInDim S800000x1 ![0] bcast_S800000_S800000x1_0 x3
/-- The in-degree of every node: ones summed onto the destinations. -/
def deg (x3 : S800000.Idx → BitVec 32) : S50000.Idx → EReal :=
  Host.scatterAdd scatter_S50000_S800000x1_S800000_n_0_0_1
    (broadcastInDim S50000 ![] bcast_S_S50000 (constant (F := Ideal) S_ .f32 0x00000000#32)) (sidx x3)
    (broadcastInDim S800000 ![] bcast_S_S800000 (constant (F := Ideal) S_ .f32 0x3F800000#32))
/-- Per-edge rows summed onto their destination nodes. -/
def segsum (x3 : S800000.Idx → BitVec 32) (M : S800000x64.Idx → EReal) : S50000x64.Idx → EReal :=
  Host.scatterAdd scatter_S50000x64_S800000x1_S800000x64_1_0_0_1
    (broadcastInDim S50000x64 ![] bcast_S_S50000x64 (constant (F := Ideal) S_ .f32 0x00000000#32)) (sidx x3) M
/-- The in-degree repeated along the feature axis. -/
def degB (x3 : S800000.Idx → BitVec 32) : S50000x64.Idx → EReal :=
  broadcastInDim S50000x64 ![0, 1] bcast_S50000x1_S50000x64_0_1 (broadcastInDim S50000x1 ![0] bcast_S50000_S50000x1_0 (deg x3))
/-- Every node's pooled row. -/
def vp (x0 : S50000x64.Idx → EReal) (x4 : S64x64.Idx → EReal) (x5 : S64.Idx → EReal) (x6 : S64x64.Idx → EReal) (x7 : S64.Idx → EReal) :
    S50000x64.Idx → EReal := Cert.Spec.pool x0 (T x4) (Rs x5) (T x6) (Rs x7)
/-- Every edge's source node's pooled row. -/
def vsrc (x0 : S50000x64.Idx → EReal) (x2 : S800000.Idx → BitVec 32) (x4 : S64x64.Idx → EReal) (x5 : S64.Idx → EReal)
    (x6 : S64x64.Idx → EReal) (x7 : S64.Idx → EReal) : S800000x64.Idx → EReal :=
  Host.gather gather_S50000x64_S800000x1_S800000x64_1_0_n_n_0_1_164 (vp x0 x4 x5 x6 x7) (gidx x2)

/-! ## Region 0: what it finds and what it leaves -/

theorem in0_x (c : Dev nD) : V1 m ρ c main_arg0 = m ((c : Thread nD τ).loc main_arg0) := by
  show StableHlo.after hostOps0 (W0 m ρ c) (Proc.devRef .tc main_arg0) = _
  after_results
theorem in0_wa (c : Dev nD) : V1 m ρ c main_v0 = T (m ((c : Thread nD τ).loc main_arg4)) := by
  show StableHlo.after hostOps0 (W0 m ρ c) (Proc.devRef .tc main_v0) = _
  after_results
  rfl
theorem in0_ba (c : Dev nD) : V1 m ρ c main_v2 = Rs (m ((c : Thread nD τ).loc main_arg5)) := by
  show StableHlo.after hostOps0 (W0 m ρ c) (Proc.devRef .tc main_v2) = _
  after_results
  rfl
theorem in0_wb (c : Dev nD) : V1 m ρ c main_v1 = T (m ((c : Thread nD τ).loc main_arg6)) := by
  show StableHlo.after hostOps0 (W0 m ρ c) (Proc.devRef .tc main_v1) = _
  after_results
  rfl
theorem in0_bb (c : Dev nD) : V1 m ρ c main_v3 = Rs (m ((c : Thread nD τ).loc main_arg7)) := by
  show StableHlo.after hostOps0 (W0 m ρ c) (Proc.devRef .tc main_v3) = _
  after_results
  rfl

/-- After region 0 its result buffer holds the pooled rows of the launch arrays. -/
theorem out0 (c : Dev nD) : W2 m ρ c (Proc.devRef .tc main_v4)
    = vp (m ((c : Thread nD τ).loc main_arg0)) (m ((c : Thread nD τ).loc main_arg4)) (m ((c : Thread nD τ).loc main_arg5))
        (m ((c : Thread nD τ).loc main_arg6)) (m ((c : Thread nD τ).loc main_arg7)) := by
  refine (W2_arr m ρ c 5).trans ((Cert.KernelIdeal.Pool.pool_arr (V1 m ρ) c).trans ?_)
  rw [in0_x, in0_wa, in0_ba, in0_wb, in0_bb]
  rfl

/-- A buffer region 0 does not touch and the first host stretch does not write is still at its launch contents. -/
theorem keep2 (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) := (W2_of_ne m ρ c b hb).trans h0

theorem keep2_arg1 (c : Dev nD) : W2 m ρ c (Proc.devRef .tc main_arg1) = m ((c : Thread nD τ).loc main_arg1) :=
  keep2 m ρ c main_arg1 (by decide) (by after_results)
theorem keep2_arg2 (c : Dev nD) : W2 m ρ c (Proc.devRef .tc main_arg2) = m ((c : Thread nD τ).loc main_arg2) :=
  keep2 m ρ c main_arg2 (by decide) (by after_results)
theorem keep2_arg3 (c : Dev nD) : W2 m ρ c (Proc.devRef .tc main_arg3) = m ((c : Thread nD τ).loc main_arg3) :=
  keep2 m ρ c main_arg3 (by decide) (by after_results)
theorem keep2_arg8 (c : Dev nD) : W2 m ρ c (Proc.devRef .tc main_arg8) = m ((c : Thread nD τ).loc main_arg8) :=
  keep2 m ρ c main_arg8 (by decide) (by after_results)
theorem keep2_arg9 (c : Dev nD) : W2 m ρ c (Proc.devRef .tc main_arg9) = m ((c : Thread nD τ).loc main_arg9) :=
  keep2 m ρ c main_arg9 (by decide) (by after_results)
theorem keep2_arg10 (c : Dev nD) : W2 m ρ c (Proc.devRef .tc main_arg10) = m ((c : Thread nD τ).loc main_arg10) :=
  keep2 m ρ c main_arg10 (by decide) (by after_results)
theorem keep2_arg11 (c : Dev nD) : W2 m ρ c (Proc.devRef .tc main_arg11) = m ((c : Thread nD τ).loc main_arg11) :=
  keep2 m ρ c main_arg11 (by decide) (by after_results)
theorem keep2_arg12 (c : Dev nD) : W2 m ρ c (Proc.devRef .tc main_arg12) = m ((c : Thread nD τ).loc main_arg12) :=
  keep2 m ρ c main_arg12 (by decide) (by after_results)
theorem keep2_arg13 (c : Dev nD) : W2 m ρ c (Proc.devRef .tc main_arg13) = m ((c : Thread nD τ).loc main_arg13) :=
  keep2 m ρ c main_arg13 (by decide) (by after_results)
theorem keep2_arg14 (c : Dev nD) : W2 m ρ c (Proc.devRef .tc main_arg14) = m ((c : Thread nD τ).loc main_arg14) :=
  keep2 m ρ c main_arg14 (by decide) (by after_results)
theorem keep2_arg15 (c : Dev nD) : W2 m ρ c (Proc.devRef .tc main_arg15) = m ((c : Thread nD τ).loc main_arg15) :=
  keep2 m ρ c main_arg15 (by decide) (by after_results)

/-! ## Region 1: what it finds -/

theorem in1_e (c : Dev nD) : V3 m ρ c main_arg1 = m ((c : Thread nD τ).loc main_arg1) := by
  show StableHlo.after hostOps1 (W2 m ρ c) (Proc.devRef .tc main_arg1) = _
  after_results
  exact keep2_arg1 m ρ c
theorem in1_v (c : Dev nD) : V3 m ρ c main_v11
    = vsrc (m ((c : Thread nD τ).loc main_arg0)) (m ((c : Thread nD τ).loc main_arg2)) (m ((c : Thread nD τ).loc main_arg4))
        (m ((c : Thread nD τ).loc main_arg5)) (m ((c : Thread nD τ).loc main_arg6)) (m ((c : Thread nD τ).loc main_arg7)) := by
  show StableHlo.after hostOps1 (W2 m ρ c) (Proc.devRef .tc main_v11) = _
  after_results
  rw [out0, keep2_arg2]
  rfl

theorem in1_w1 (c : Dev nD) : V3 m ρ c main_v12 = T (m ((c : Thread nD τ).loc main_arg8)) := by
  show StableHlo.after hostOps1 (W2 m ρ c) (Proc.devRef .tc main_v12) = _
  after_results
  rw [keep2_arg8]
  rfl
theorem in1_b1 (c : Dev nD) : V3 m ρ c main_v16 = Rs (m ((c : Thread nD τ).loc main_arg9)) := by
  show StableHlo.after hostOps1 (W2 m ρ c) (Proc.devRef .tc main_v16) = _
  after_results
  rw [keep2_arg9]
  rfl
theorem in1_w2 (c : Dev nD) : V3 m ρ c main_v13 = T (m ((c : Thread nD τ).loc main_arg10)) := by
  show StableHlo.after hostOps1 (W2 m ρ c) (Proc.devRef .tc main_v13) = _
  after_results
  rw [keep2_arg10]
  rfl
theorem in1_b2 (c : Dev nD) : V3 m ρ c main_v17 = Rs (m ((c : Thread nD τ).loc main_arg11)) := by
  show StableHlo.after hostOps1 (W2 m ρ c) (Proc.devRef .tc main_v17) = _
  after_results
  rw [keep2_arg11]
  rfl
theorem in1_wB (c : Dev nD) : V3 m ρ c main_v14 = T (m ((c : Thread nD τ).loc main_arg12)) := by
  show StableHlo.after hostOps1 (W2 m ρ c) (Proc.devRef .tc main_v14) = _
  after_results
  rw [keep2_arg12]
  rfl
theorem in1_bB (c : Dev nD) : V3 m ρ c main_v18 = Rs (m ((c : Thread nD τ).loc main_arg13)) := by
  show StableHlo.after hostOps1 (W2 m ρ c) (Proc.devRef .tc main_v18) = _
  after_results
  rw [keep2_arg13]
  rfl
theorem in1_wC (c : Dev nD) : V3 m ρ c main_v15 = T (m ((c : Thread nD τ).loc main_arg14)) := by
  show StableHlo.after hostOps1 (W2 m ρ c) (Proc.devRef .tc main_v15) = _
  after_results
  rw [keep2_arg14]
  rfl
theorem in1_bC (c : Dev nD) : V3 m ρ c main_v19 = Rs (m ((c : Thread nD τ).loc main_arg15)) := by
  show StableHlo.after hostOps1 (W2 m ρ c) (Proc.devRef .tc main_v19) = _
  after_results
  rw [keep2_arg15]
  rfl

/-! ## The whole value, as one term of the sixteen launch arrays -/

section Term
variable (x0 : S50000x64.Idx → EReal) (x1 : S800000x64.Idx → EReal) (x2 x3 : S800000.Idx → BitVec 32)
  (x4 : S64x64.Idx → EReal) (x5 : S64.Idx → EReal) (x6 : S64x64.Idx → EReal) (x7 : S64.Idx → EReal)
  (x8 : S64x64.Idx → EReal) (x9 : S64.Idx → EReal) (x10 : S64x64.Idx → EReal) (x11 : S64.Idx → EReal)
  (x12 : S64x64.Idx → EReal) (x13 : S64.Idx → EReal) (x14 : S64x64.Idx → EReal) (x15 : S64.Idx → EReal)

/-- Every edge's message. -/
def m1 : S800000x64.Idx → EReal :=
  Cert.Spec.msg x1 (vsrc x0 x2 x4 x5 x6 x7) (T x8) (Rs x9) (T x10) (Rs x11) (T x12) (Rs x13) (T x14) (Rs x15)
/-- Every edge's squared message. -/
def m2 : S800000x64.Idx → EReal :=
  Cert.Spec.msgSq x1 (vsrc x0 x2 x4 x5 x6 x7) (T x8) (Rs x9) (T x10) (Rs x11) (T x12) (Rs x13) (T x14) (Rs x15)
/-- The layer's result. -/
def result : S50000x64.Idx → EReal :=
  Cert.Spec.final (segsum x3 (m1 x0 x1 x2 x4 x5 x6 x7 x8 x9 x10 x11 x12 x13 x14 x15))
    (segsum x3 (m2 x0 x1 x2 x4 x5 x6 x7 x8 x9 x10 x11 x12 x13 x14 x15)) (degB x3)
end Term

/-- The launch contents of a buffer on core c. -/
abbrev arg (c : Dev nD) (b : Ref sig .tc) : Buf (Elt Ideal) ((c : Thread nD τ).loc b) := m ((c : Thread nD τ).loc b)

/-! ## Region 1: what it leaves -/

theorem out1_msg (c : Dev nD) : W4 m ρ c (Proc.devRef .tc main_v20_0)
    = m1 (arg m c main_arg0) (arg m c main_arg1) (arg m c main_arg2) (arg m c main_arg4) (arg m c main_arg5) (arg m c main_arg6) (arg m c main_arg7) (arg m c main_arg8)
        (arg m c main_arg9) (arg m c main_arg10) (arg m c main_arg11) (arg m c main_arg12) (arg m c main_arg13) (arg m c main_arg14) (arg m c main_arg15) := by
  refine (W4_arr m ρ c 10).trans ((Cert.KernelIdeal.Msg.msg_arr (V3 m ρ) c).trans ?_)
  rw [in1_e, in1_v, in1_w1, in1_b1, in1_w2, in1_b2, in1_wB, in1_bB, in1_wC, in1_bC]
  rfl
theorem out1_msgSq (c : Dev nD) : W4 m ρ c (Proc.devRef .tc main_v20_1)
    = m2 (arg m c main_arg0) (arg m c main_arg1) (arg m c main_arg2) (arg m c main_arg4) (arg m c main_arg5) (arg m c main_arg6) (arg m c main_arg7) (arg m c main_arg8)
        (arg m c main_arg9) (arg m c main_arg10) (arg m c main_arg11) (arg m c main_arg12) (arg m c main_arg13) (arg m c main_arg14) (arg m c main_arg15) := by
  refine (W4_arr m ρ c 11).trans ((Cert.KernelIdeal.Msg.msgSq_arr (V3 m ρ) c).trans ?_)
  rw [in1_e, in1_v, in1_w1, in1_b1, in1_w2, in1_b2, in1_wB, in1_bB, in1_wC, in1_bC]
  rfl
/-- The destination ids reach the last host stretch as launched. -/
theorem keep4_arg3 (c : Dev nD) : W4 m ρ c (Proc.devRef .tc main_arg3) = m ((c : Thread nD τ).loc main_arg3) := by
  refine (W4_of_ne m ρ c main_arg3 (by decide)).trans ?_
  show StableHlo.after hostOps1 (W2 m ρ c) (Proc.devRef .tc main_arg3) = _
  after_results
  exact keep2_arg3 m ρ c

/-! ## Region 2: what it finds and what it leaves -/

theorem in2_a (c : Dev nD) : V5 m ρ c main_v27
    = segsum (arg m c main_arg3) (m1 (arg m c main_arg0) (arg m c main_arg1) (arg m c main_arg2) (arg m c main_arg4) (arg m c main_arg5) (arg m c main_arg6) (arg m c main_arg7) (arg m c main_arg8)
        (arg m c main_arg9) (arg m c main_arg10) (arg m c main_arg11) (arg m c main_arg12) (arg m c main_arg13) (arg m c main_arg14) (arg m c main_arg15)) := by
  show StableHlo.after hostOps2 (W4 m ρ c) (Proc.devRef .tc main_v27) = _
  after_results
  rw [out1_msg, keep4_arg3]
  rfl
theorem in2_b (c : Dev nD) : V5 m ρ c main_v30
    = segsum (arg m c main_arg3) (m2 (arg m c main_arg0) (arg m c main_arg1) (arg m c main_arg2) (arg m c main_arg4) (arg m c main_arg5) (arg m c main_arg6) (arg m c main_arg7) (arg m c main_arg8)
        (arg m c main_arg9) (arg m c main_arg10) (arg m c main_arg11) (arg m c main_arg12) (arg m c main_arg13) (arg m c main_arg14) (arg m c main_arg15)) := by
  show StableHlo.after hostOps2 (W4 m ρ c) (Proc.devRef .tc main_v30) = _
  after_results
  rw [out1_msgSq, keep4_arg3]
  rfl
theorem in2_d (c : Dev nD) : V5 m ρ c main_v32 = degB (arg m c main_arg3) := by
  show StableHlo.after hostOps2 (W4 m ρ c) (Proc.devRef .tc main_v32) = _
  after_results
  rw [keep4_arg3]
  rfl

/-- THE KERNEL'S VALUE: when @main returns, the result buffer holds the layer's result of the launch arrays. -/
theorem value (c : Dev nD) : W6 m ρ c (Proc.devRef .tc main_v33)
    = result (arg m c main_arg0) (arg m c main_arg1) (arg m c main_arg2) (arg m c main_arg3) (arg m c main_arg4) (arg m c main_arg5) (arg m c main_arg6) (arg m c main_arg7) (arg m c main_arg8)
        (arg m c main_arg9) (arg m c main_arg10) (arg m c main_arg11) (arg m c main_arg12) (arg m c main_arg13) (arg m c main_arg14) (arg m c main_arg15) := by
  refine (W6_arr m ρ c 3).trans ((Cert.KernelIdeal.Fin.final_arr (V5 m ρ) c).trans ?_)
  rw [in2_a, in2_b, in2_d]
  rfl

end Cert.KernelIdeal.Chain

end
-- ==== Proof.RefPool.lean ====
/-
  The reference's pooled node features are the specification's.

  The reference computes, for the node array X (50000 × 64), the two weight matrices MA, MB (64 × 64, stored
  output-feature first) and the two bias vectors cA, cB (length 64),
      Y = lrelu X,   Z = Y · MAᵀ + cA,   Y' = lrelu Z,   P = Y' · MBᵀ + cB,
  the products contracting the feature axis of the left factor with the first axis of the transposed matrix, and each
  bias broadcast along the node axis.  Read at an entry (r, j):
      Y (r, k)  = lrelu (X (r, k)),
      Z (r, j)  = Σ k, Y (r, k) * MA (j, k) + cA j,
      Y' (r, k) = lrelu (Z (r, k)),
      P (r, j)  = Σ k, Y' (r, k) * MB (j, k) + cB j.
  With W (k, j) = M (j, k) and b (0, j) = c j these are the specification's dense layers on row r, so P (r, j) is the
  pooled row of X's row r at feature j.  The proof is one lemma per line above, then their composition.
-/
import proofs.«160303_j52123723105097_1_alg».proof.Proof.Gen.ReferenceIdeal.Read
import proofs.«160303_j52123723105097_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Bridge

open Cert.ReferenceIdeal Cert.ReferenceIdeal.Gen Cert.ReferenceIdeal.Read Idealize.ShloMosaic Idealize.ShloMosaic.TcCoe Idealize.SL.Sem
open Idealize.ShloMosaic.ValueIdx
open Cert.Spec (SN SE SW SR)

variable (x0 : S50000x64.Idx → EReal) (x1 : S800000x64.Idx → EReal) (x2 x3 : S800000.Idx → BitVec 32)
  (x4 : S64x64.Idx → EReal) (x5 : S64.Idx → EReal) (x6 : S64x64.Idx → EReal) (x7 : S64.Idx → EReal)
  (x8 : S64x64.Idx → EReal) (x9 : S64.Idx → EReal) (x10 : S64x64.Idx → EReal) (x11 : S64.Idx → EReal)
  (x12 : S64x64.Idx → EReal) (x13 : S64.Idx → EReal) (x14 : S64x64.Idx → EReal) (x15 : S64.Idx → EReal)

/-! ### Index equations: the composed index functions of the product, the transposes and the bias broadcasts,
    at an index given by its coordinates. -/

theorem pool_lidx6 (r : Fin 50000) (j k : Fin 64) : lidx_main_v6 (ix2 r j) k = ix2 r k :=
  funext fun a => Fin.ext (by match a with | ⟨0, _⟩ => rfl | ⟨1, _⟩ => rfl)
theorem pool_ridx6 (r : Fin 50000) (j k : Fin 64) : ridx_main_v6 (ix2 r j) k = ix2 k j :=
  funext fun a => Fin.ext (by match a with | ⟨0, _⟩ => rfl | ⟨1, _⟩ => rfl)
theorem pool_idx5 (k j : Fin 64) : idx_main_v5 (ix2 k j) = ix2 j k :=
  funext fun a => Fin.ext (by match a with | ⟨0, _⟩ => rfl | ⟨1, _⟩ => rfl)
theorem pool_idx8 (r : Fin 50000) (j : Fin 64) : idx_main_v8 (ix2 r j) = ix2 (0 : Fin 1) j :=
  funext fun a => Fin.ext (by match a with | ⟨0, _⟩ => rfl | ⟨1, _⟩ => rfl)
theorem pool_idx7 (j : Fin 64) : idx_main_v7 (ix2 (0 : Fin 1) j) = ix1 j :=
  funext fun a => Fin.ext (by match a with | ⟨0, _⟩ => rfl)
theorem pool_lidx16 (r : Fin 50000) (j k : Fin 64) : lidx_main_v16 (ix2 r j) k = ix2 r k :=
  funext fun a => Fin.ext (by match a with | ⟨0, _⟩ => rfl | ⟨1, _⟩ => rfl)
theorem pool_ridx16 (r : Fin 50000) (j k : Fin 64) : ridx_main_v16 (ix2 r j) k = ix2 k j :=
  funext fun a => Fin.ext (by match a with | ⟨0, _⟩ => rfl | ⟨1, _⟩ => rfl)
theorem pool_idx15 (k j : Fin 64) : idx_main_v15 (ix2 k j) = ix2 j k :=
  funext fun a => Fin.ext (by match a with | ⟨0, _⟩ => rfl | ⟨1, _⟩ => rfl)
theorem pool_idx18 (r : Fin 50000) (j : Fin 64) : idx_main_v18 (ix2 r j) = ix2 (0 : Fin 1) j :=
  funext fun a => Fin.ext (by match a with | ⟨0, _⟩ => rfl | ⟨1, _⟩ => rfl)
theorem pool_idx17 (j : Fin 64) : idx_main_v17 (ix2 (0 : Fin 1) j) = ix1 j :=
  funext fun a => Fin.ext (by match a with | ⟨0, _⟩ => rfl)

/-! ### The four lines. -/

/-- Y (r, k) = lrelu (X (r, k)): the select of X against its product with the slope, on the sign test against zero. -/
theorem pool_lrelu0 (r : Fin 50000) (k : Fin 64) :
    val_main_v4 (F := Ideal) x0 (ix2 r k) = Cert.Spec.lrelu (x0 (ix2 r k)) := by
  rw [val_main_v4_apply, val_main_v1_apply, val_main_v0_apply, val_main_cst_apply, val_main_v3_apply,
    val_main_v2_apply, val_main_cst_0_apply]
  rfl

/-- Z (r, j) is the first dense layer on the rectified row r. -/
theorem pool_dense1 (Wa : SW.Idx → EReal) (ba : SR.Idx → EReal)
    (hWa : ∀ k j : Fin 64, Wa (ix2 k j) = x4 (ix2 j k)) (hba : ∀ j : Fin 64, ba (ix2 (0 : Fin 1) j) = x5 (ix1 j))
    (r : Fin 50000) (j : Fin 64) :
    val_main_v9 (F := Ideal) x0 x4 x5 (ix2 r j)
      = Cert.Spec.dense (fun k => Cert.Spec.lrelu (x0 (ix2 r k))) Wa ba j := by
  rw [val_main_v9_apply, val_main_v6_apply, val_main_v8_apply, val_main_v7_apply, pool_idx8, pool_idx7]
  unfold Cert.Spec.dense
  rw [hba]
  refine congrArg (· + x5 (ix1 j)) (Finset.sum_congr rfl fun k _ => ?_)
  rw [pool_lidx6, pool_ridx6, pool_lrelu0, val_main_v5_apply, pool_idx5, hWa]

/-- Y' (r, k) = lrelu (Z (r, k)). -/
theorem pool_lrelu1 (r : Fin 50000) (k : Fin 64) :
    val_main_v14 (F := Ideal) x0 x4 x5 (ix2 r k) = Cert.Spec.lrelu (val_main_v9 (F := Ideal) x0 x4 x5 (ix2 r k)) := by
  rw [val_main_v14_apply, val_main_v11_apply, val_main_v10_apply, val_main_cst_1_apply, val_main_v13_apply,
    val_main_v12_apply, val_main_cst_2_apply]
  rfl

/-- P (r, j) is the second dense layer on the rectified row r of Z. -/
theorem pool_dense2 (Wb : SW.Idx → EReal) (bb : SR.Idx → EReal)
    (hWb : ∀ k j : Fin 64, Wb (ix2 k j) = x6 (ix2 j k)) (hbb : ∀ j : Fin 64, bb (ix2 (0 : Fin 1) j) = x7 (ix1 j))
    (r : Fin 50000) (j : Fin 64) :
    val_main_v19 (F := Ideal) x0 x4 x5 x6 x7 (ix2 r j)
      = Cert.Spec.dense (fun k => Cert.Spec.lrelu (val_main_v9 (F := Ideal) x0 x4 x5 (ix2 r k))) Wb bb j := by
  rw [val_main_v19_apply, val_main_v16_apply, val_main_v18_apply, val_main_v17_apply, pool_idx18, pool_idx17]
  unfold Cert.Spec.dense
  rw [hbb]
  refine congrArg (· + x7 (ix1 j)) (Finset.sum_congr rfl fun k _ => ?_)
  rw [pool_lidx16, pool_ridx16, pool_lrelu1, val_main_v15_apply, pool_idx15, hWb]

/-- The reference's pooled node features are the specification's, for any arrays Wa, ba, Wb, bb that hold the transposed
    weights and the bias rows: entry (k, j) of W the entry (j, k) of the reference's matrix, entry (0, j) of b the
    reference's bias at j. -/
theorem pool_eq (Wa : SW.Idx → EReal) (ba : SR.Idx → EReal) (Wb : SW.Idx → EReal) (bb : SR.Idx → EReal)
    (hWa : ∀ k j : Fin 64, Wa (ix2 k j) = x4 (ix2 j k)) (hba : ∀ j : Fin 64, ba (ix2 (0 : Fin 1) j) = x5 (ix1 j))
    (hWb : ∀ k j : Fin 64, Wb (ix2 k j) = x6 (ix2 j k)) (hbb : ∀ j : Fin 64, bb (ix2 (0 : Fin 1) j) = x7 (ix1 j)) :
    val_main_v19 (F := Ideal) x0 x4 x5 x6 x7 = Cert.Spec.pool x0 Wa ba Wb bb := by
  funext i
  obtain ⟨r, j, rfl⟩ : ∃ (r : Fin 50000) (j : Fin 64), i = ix2 r j := ⟨i 0, i 1, eq_ix2 i⟩
  rw [pool_dense2 x0 x4 x5 x6 x7 Wb bb hWb hbb r j]
  show _ = Cert.Spec.poolRow (fun k => x0 (ix2 r k)) Wa ba Wb bb j
  unfold Cert.Spec.poolRow
  simp only [pool_dense1 x0 x4 x5 Wa ba hWa hba]

end Cert.ReferenceIdeal.Bridge

end
-- ==== Proof.RefMsg.lean ====
/-
  The reference program's edge stage, read entry by entry, is the specification's message function.

  For an edge r with feature row e = E r, the reference forms four dense layers, each a contraction of a row against a
  TRANSPOSED weight matrix plus a bias row broadcast over the edges:
      h1 = relu (e · W1 + b1),   h = relu (h1 · W2 + b2),   logits = h · WB + bB,   shift = h · WC + bC,
  where (y · W + b) j = (Σ k, y k * W (k, j)) + b (0, j), the entry W (k, j) of the matrix the contraction sees being
  the entry (j, k) of the matrix the program was handed, and b (0, j) the entry j of the bias vector.
  The rectifier is the maximum against a zero broadcast over the array.  The gate is spelt out as
      1 / (1 + exp (- logits)),
  the two ones being the same binary word, whose value is the real number 1: that is the logistic function.
  With v the gathered pooled row of the edge's source node (left as it is: an argument of both sides),
      M1 = gate * v + shift,   M2 = M1 * M1.
  Each layer is one lemma: "the stage after the bias add, at (r, j), is the dense layer of the previous stage's row r";
  the index functions of a contraction, of a transposition and of the two bias broadcasts are identified with the
  coordinate constructors axis by axis.
-/
import proofs.«160303_j52123723105097_1_alg».proof.Proof.Gen.ReferenceIdeal.Read
import proofs.«160303_j52123723105097_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Bridge

open Cert.ReferenceIdeal Cert.ReferenceIdeal.Gen Cert.ReferenceIdeal.Read Idealize.ShloMosaic Idealize.ShloMosaic.TcCoe Idealize.SL.Sem
open Idealize.ShloMosaic.ValueIdx
open Cert.Spec (SN SE SW SR)

variable (x0 : S50000x64.Idx → EReal) (x1 : S800000x64.Idx → EReal) (x2 x3 : S800000.Idx → BitVec 32)
  (x4 : S64x64.Idx → EReal) (x5 : S64.Idx → EReal) (x6 : S64x64.Idx → EReal) (x7 : S64.Idx → EReal)
  (x8 : S64x64.Idx → EReal) (x9 : S64.Idx → EReal) (x10 : S64x64.Idx → EReal) (x11 : S64.Idx → EReal)
  (x12 : S64x64.Idx → EReal) (x13 : S64.Idx → EReal) (x14 : S64x64.Idx → EReal) (x15 : S64.Idx → EReal)

/-! ### The index functions, axis by axis -/

/-- The contraction reads its left operand at (row of the output, k). -/
theorem msg_lidx (r : Fin 800000) (j k : Fin 64) : lidx_main_v21 (ix2 r j) k = ix2 r k :=
  funext fun a => Fin.ext (by match a with | ⟨0, _⟩ => rfl | ⟨1, _⟩ => rfl)

/-- The contraction reads the transposed matrix at (k, column of the output): the entry (column, k) of the matrix given. -/
theorem msg_ridx (r : Fin 800000) (j k : Fin 64) : idx_main_v20 (ridx_main_v21 (ix2 r j) k) = ix2 j k :=
  funext fun a => Fin.ext (by match a with | ⟨0, _⟩ => rfl | ⟨1, _⟩ => rfl)

/-- The bias row broadcast over the edges is read at the output's column. -/
theorem msg_bidx (r : Fin 800000) (j : Fin 64) : idx_main_v22 (idx_main_v23 (ix2 r j)) = ix1 j :=
  funext fun a => Fin.ext (by match a with | ⟨0, _⟩ => rfl)

/-! ### One dense layer -/

/-- A contraction of the rows of `y` against the transposed matrix, plus the broadcast bias, at (r, j), is the dense
    layer of row r of `y`, for any arrays W, b holding the transposed matrix and the bias row. -/
theorem msg_dense_at (y : S800000x64.Idx → EReal) (xw : S64x64.Idx → EReal) (xb : S64.Idx → EReal)
    (W : SW.Idx → EReal) (b : SR.Idx → EReal)
    (hW : ∀ k j : Fin 64, W (ix2 k j) = xw (ix2 j k)) (hb : ∀ j : Fin 64, b (ix2 (0 : Fin 1) j) = xb (ix1 j))
    (r : Fin 800000) (j : Fin 64) :
    (∑ k : Fin 64, y (lidx_main_v21 (ix2 r j) k) * xw (idx_main_v20 (ridx_main_v21 (ix2 r j) k)))
        + xb (idx_main_v22 (idx_main_v23 (ix2 r j)))
      = Cert.Spec.dense (fun k => y (ix2 r k)) W b j := by
  unfold Cert.Spec.dense
  refine congrArg₂ (· + ·) (Finset.sum_congr rfl fun k _ => ?_) ?_
  · rw [hW, msg_lidx, msg_ridx]
  · rw [hb, msg_bidx]

/-- The binary word of the two ones is the real number one. -/
theorem msg_one : Ideal.ofBits .f32 0x3F800000#32 = (1 : EReal) := by
  simp [Ideal.ofBits, Ideal.ieee, -EReal.coe_mul]; norm_num

/-! ### The four layers, the gate -/

/-- First hidden layer: relu (e · W1 + b1). -/
theorem msg_h1 (W1 : SW.Idx → EReal) (b1 : SR.Idx → EReal)
    (hW1 : ∀ k j : Fin 64, W1 (ix2 k j) = x8 (ix2 j k)) (hb1 : ∀ j : Fin 64, b1 (ix2 (0 : Fin 1) j) = x9 (ix1 j))
    (r : Fin 800000) (j : Fin 64) :
    val_main_v25 (F := Ideal) x1 x8 x9 (ix2 r j)
      = Cert.Spec.relu (Cert.Spec.dense (fun k => x1 (ix2 r k)) W1 b1 j) := by
  rw [val_main_v25_apply, val_main_v24_apply, val_main_v21_apply, val_main_v23_apply, val_main_v22_apply,
    val_main_call2_v0_apply, val_main_call2_cst_apply]
  simp only [val_main_v20_apply, Ideal.maximumf_def, Ideal.addf_def, Ideal.ofBits_def]
  unfold Cert.Spec.relu
  exact congrArg (fun t => max t _) (msg_dense_at x1 x8 x9 W1 b1 hW1 hb1 r j)

/-- Second hidden layer: the edge's hidden row relu (h1 · W2 + b2). -/
theorem msg_h (W1 : SW.Idx → EReal) (b1 : SR.Idx → EReal) (W2 : SW.Idx → EReal) (b2 : SR.Idx → EReal)
    (hW1 : ∀ k j : Fin 64, W1 (ix2 k j) = x8 (ix2 j k)) (hb1 : ∀ j : Fin 64, b1 (ix2 (0 : Fin 1) j) = x9 (ix1 j))
    (hW2 : ∀ k j : Fin 64, W2 (ix2 k j) = x10 (ix2 j k)) (hb2 : ∀ j : Fin 64, b2 (ix2 (0 : Fin 1) j) = x11 (ix1 j))
    (r : Fin 800000) (j : Fin 64) :
    val_main_v31 (F := Ideal) x1 x8 x9 x10 x11 (ix2 r j)
      = Cert.Spec.hidRow (fun k => x1 (ix2 r k)) W1 b1 W2 b2 j := by
  rw [val_main_v31_apply, val_main_v30_apply, val_main_v27_apply, val_main_v29_apply, val_main_v28_apply,
    val_main_call3_v0_apply, val_main_call3_cst_apply]
  simp only [val_main_v26_apply, Ideal.maximumf_def, Ideal.addf_def, Ideal.ofBits_def]
  unfold Cert.Spec.hidRow Cert.Spec.relu
  refine congrArg (fun t => max t _) ?_
  refine (msg_dense_at (val_main_v25 (F := Ideal) x1 x8 x9) x10 x11 W2 b2 hW2 hb2 r j).trans ?_
  simp only [msg_h1 x1 x8 x9 W1 b1 hW1 hb1]
  rfl

/-- The gate's logits: h · WB + bB. -/
theorem msg_logits (W1 : SW.Idx → EReal) (b1 : SR.Idx → EReal) (W2 : SW.Idx → EReal) (b2 : SR.Idx → EReal)
    (WB : SW.Idx → EReal) (bB : SR.Idx → EReal)
    (hW1 : ∀ k j : Fin 64, W1 (ix2 k j) = x8 (ix2 j k)) (hb1 : ∀ j : Fin 64, b1 (ix2 (0 : Fin 1) j) = x9 (ix1 j))
    (hW2 : ∀ k j : Fin 64, W2 (ix2 k j) = x10 (ix2 j k)) (hb2 : ∀ j : Fin 64, b2 (ix2 (0 : Fin 1) j) = x11 (ix1 j))
    (hWB : ∀ k j : Fin 64, WB (ix2 k j) = x12 (ix2 j k)) (hbB : ∀ j : Fin 64, bB (ix2 (0 : Fin 1) j) = x13 (ix1 j))
    (r : Fin 800000) (j : Fin 64) :
    val_main_v36 (F := Ideal) x1 x8 x9 x10 x11 x12 x13 (ix2 r j)
      = Cert.Spec.dense (Cert.Spec.hidRow (fun k => x1 (ix2 r k)) W1 b1 W2 b2) WB bB j := by
  rw [val_main_v36_apply, val_main_v33_apply, val_main_v35_apply, val_main_v34_apply]
  simp only [val_main_v32_apply, Ideal.addf_def]
  refine (msg_dense_at (val_main_v31 (F := Ideal) x1 x8 x9 x10 x11) x12 x13 WB bB hWB hbB r j).trans ?_
  simp only [msg_h x1 x8 x9 x10 x11 W1 b1 W2 b2 hW1 hb1 hW2 hb2]

/-- The shift: h · WC + bC. -/
theorem msg_shift (W1 : SW.Idx → EReal) (b1 : SR.Idx → EReal) (W2 : SW.Idx → EReal) (b2 : SR.Idx → EReal)
    (WC : SW.Idx → EReal) (bC : SR.Idx → EReal)
    (hW1 : ∀ k j : Fin 64, W1 (ix2 k j) = x8 (ix2 j k)) (hb1 : ∀ j : Fin 64, b1 (ix2 (0 : Fin 1) j) = x9 (ix1 j))
    (hW2 : ∀ k j : Fin 64, W2 (ix2 k j) = x10 (ix2 j k)) (hb2 : ∀ j : Fin 64, b2 (ix2 (0 : Fin 1) j) = x11 (ix1 j))
    (hWC : ∀ k j : Fin 64, WC (ix2 k j) = x14 (ix2 j k)) (hbC : ∀ j : Fin 64, bC (ix2 (0 : Fin 1) j) = x15 (ix1 j))
    (r : Fin 800000) (j : Fin 64) :
    val_main_v47 (F := Ideal) x1 x8 x9 x10 x11 x14 x15 (ix2 r j)
      = Cert.Spec.dense (Cert.Spec.hidRow (fun k => x1 (ix2 r k)) W1 b1 W2 b2) WC bC j := by
  rw [val_main_v47_apply, val_main_v44_apply, val_main_v46_apply, val_main_v45_apply]
  simp only [val_main_v43_apply, Ideal.addf_def]
  refine (msg_dense_at (val_main_v31 (F := Ideal) x1 x8 x9 x10 x11) x14 x15 WC bC hWC hbC r j).trans ?_
  simp only [msg_h x1 x8 x9 x10 x11 W1 b1 W2 b2 hW1 hb1 hW2 hb2]

/-- The gate: one over one plus the exponential of the negated logits is the logistic function of the logits. -/
theorem msg_gate (i : S800000x64.Idx) :
    val_main_v42 (F := Ideal) x1 x8 x9 x10 x11 x12 x13 i
      = Ideal.logistic (val_main_v36 (F := Ideal) x1 x8 x9 x10 x11 x12 x13 i) := by
  rw [val_main_v42_apply, val_main_v41_apply, val_main_cst_4_apply, val_main_v40_apply, val_main_v39_apply,
    val_main_cst_3_apply, val_main_v38_apply, val_main_v37_apply]
  simp only [Ideal.hostDivf_def, Ideal.addf_def, Ideal.hostUnary_exp_def, Ideal.hostNegf_def, Ideal.negf_def,
    Ideal.ofBits_def, msg_one]
  rfl

/-- The reference's messages are the specification's function of the edge features and of ITS OWN gathered pooled rows
    (whatever those are), for any arrays that hold the four transposed weights and the four bias rows. -/
theorem msg_eq (W1 : SW.Idx → EReal) (b1 : SR.Idx → EReal) (W2 : SW.Idx → EReal) (b2 : SR.Idx → EReal)
    (WB : SW.Idx → EReal) (bB : SR.Idx → EReal) (WC : SW.Idx → EReal) (bC : SR.Idx → EReal)
    (hW1 : ∀ k j : Fin 64, W1 (ix2 k j) = x8 (ix2 j k)) (hb1 : ∀ j : Fin 64, b1 (ix2 (0 : Fin 1) j) = x9 (ix1 j))
    (hW2 : ∀ k j : Fin 64, W2 (ix2 k j) = x10 (ix2 j k)) (hb2 : ∀ j : Fin 64, b2 (ix2 (0 : Fin 1) j) = x11 (ix1 j))
    (hWB : ∀ k j : Fin 64, WB (ix2 k j) = x12 (ix2 j k)) (hbB : ∀ j : Fin 64, bB (ix2 (0 : Fin 1) j) = x13 (ix1 j))
    (hWC : ∀ k j : Fin 64, WC (ix2 k j) = x14 (ix2 j k)) (hbC : ∀ j : Fin 64, bC (ix2 (0 : Fin 1) j) = x15 (ix1 j)) :
    val_main_v56 (F := Ideal) x0 x1 x2 x4 x5 x6 x7 x8 x9 x10 x11 x12 x13 x14 x15
      = Cert.Spec.msg x1 (val_main_v54 (F := Ideal) x0 x2 x4 x5 x6 x7) W1 b1 W2 b2 WB bB WC bC := by
  funext i
  obtain ⟨r, j, rfl⟩ : ∃ (r : Fin 800000) (j : Fin 64), i = ix2 r j := ⟨i 0, i 1, eq_ix2 i⟩
  rw [val_main_v56_apply, val_main_v55_apply, msg_gate,
    msg_logits x1 x8 x9 x10 x11 x12 x13 W1 b1 W2 b2 WB bB hW1 hb1 hW2 hb2 hWB hbB,
    msg_shift x1 x8 x9 x10 x11 x14 x15 W1 b1 W2 b2 WC bC hW1 hb1 hW2 hb2 hWC hbC]
  simp only [Ideal.addf_def, Ideal.mulf_def]
  rfl

/-- And its squared messages the specification's. -/
theorem msgSq_eq (W1 : SW.Idx → EReal) (b1 : SR.Idx → EReal) (W2 : SW.Idx → EReal) (b2 : SR.Idx → EReal)
    (WB : SW.Idx → EReal) (bB : SR.Idx → EReal) (WC : SW.Idx → EReal) (bC : SR.Idx → EReal)
    (hW1 : ∀ k j : Fin 64, W1 (ix2 k j) = x8 (ix2 j k)) (hb1 : ∀ j : Fin 64, b1 (ix2 (0 : Fin 1) j) = x9 (ix1 j))
    (hW2 : ∀ k j : Fin 64, W2 (ix2 k j) = x10 (ix2 j k)) (hb2 : ∀ j : Fin 64, b2 (ix2 (0 : Fin 1) j) = x11 (ix1 j))
    (hWB : ∀ k j : Fin 64, WB (ix2 k j) = x12 (ix2 j k)) (hbB : ∀ j : Fin 64, bB (ix2 (0 : Fin 1) j) = x13 (ix1 j))
    (hWC : ∀ k j : Fin 64, WC (ix2 k j) = x14 (ix2 j k)) (hbC : ∀ j : Fin 64, bC (ix2 (0 : Fin 1) j) = x15 (ix1 j)) :
    val_main_v57 (F := Ideal) x0 x1 x2 x4 x5 x6 x7 x8 x9 x10 x11 x12 x13 x14 x15
      = Cert.Spec.msgSq x1 (val_main_v54 (F := Ideal) x0 x2 x4 x5 x6 x7) W1 b1 W2 b2 WB bB WC bC := by
  funext i
  rw [val_main_v57_apply,
    msg_eq x0 x1 x2 x4 x5 x6 x7 x8 x9 x10 x11 x12 x13 x14 x15 W1 b1 W2 b2 WB bB WC bC hW1 hb1 hW2 hb2 hWB hbB hWC hbC]
  rfl

end Cert.ReferenceIdeal.Bridge

end
-- ==== Proof.RefFinal.lean ====
/-
  The last stretch of the reference, entry by entry.

  With a = the segment sum of the messages, b = the segment sum of the squared messages and d = the in-degree
  (the number of edges that end at a node, as an extended real), the reference computes, at node r and feature j,
      sqrt (max (b (r, j) / m (r, j) - a (r, j) / m (r, j)) 0 + eps),
  where m is the row vector max(d, 1), first reshaped to a column and then repeated along the feature axis; so
  m (r, j) = max (d r) 1 whatever j is.  The specification's entry function takes the in-degree as an array D over
  nodes × features and forms max (D (r, j)) 1 itself; when D (r, j) = d r the two denominators are the same extended
  real, and every other operation (the two quotients, their difference, the rectifier against zero, the added eps,
  the square root) is the same scalar operation on both sides.  The literals 0, 1 and eps are the same binary words.
-/
import proofs.«160303_j52123723105097_1_alg».proof.Proof.Gen.ReferenceIdeal.Read
import proofs.«160303_j52123723105097_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Bridge

open Cert.ReferenceIdeal Cert.ReferenceIdeal.Gen Cert.ReferenceIdeal.Read Idealize.ShloMosaic Idealize.ShloMosaic.TcCoe Idealize.SL.Sem
open Idealize.ShloMosaic.ValueIdx
open Cert.Spec (SN SE SW SR)

variable (x0 : S50000x64.Idx → EReal) (x1 : S800000x64.Idx → EReal) (x2 x3 : S800000.Idx → BitVec 32)
  (x4 : S64x64.Idx → EReal) (x5 : S64.Idx → EReal) (x6 : S64x64.Idx → EReal) (x7 : S64.Idx → EReal)
  (x8 : S64x64.Idx → EReal) (x9 : S64.Idx → EReal) (x10 : S64x64.Idx → EReal) (x11 : S64.Idx → EReal)
  (x12 : S64x64.Idx → EReal) (x13 : S64.Idx → EReal) (x14 : S64x64.Idx → EReal) (x15 : S64.Idx → EReal)

/-- The broadcast denominator at (r, j) is max(in-degree of r, 1): the constant row of ones read at r is the word for 1,
    the column reshape reads the row vector at r, and the repeat along features reads the column at (r, 0). -/
theorem final_denom (r : Fin 50000) (j : Fin 64) :
    val_main_v64 (F := Ideal) x3 (idx_main_v68 (ix2 r j))
      = max (val_main_v61 (F := Ideal) x3 (ix1 r)) Cert.Spec.one := by
  have hidx : idx_main_v64 (idx_main_v68 (ix2 r j)) = ix1 r :=
    funext fun a => Fin.ext (by match a with | ⟨0, _⟩ => rfl)
  rw [val_main_v64_apply, val_main_v63_apply, val_main_v62_apply, val_main_cst_8_apply, hidx]
  rfl

/-- The reference's result is the specification's entrywise function of ITS OWN two segment-sum arrays and of any array D
    that holds, at (r, j), the reference's in-degree of node r: dividing by the broadcast of max(degree, 1) is dividing
    by max(broadcast degree, 1). -/
theorem final_eq (D : SN.Idx → EReal) (hD : ∀ i : SN.Idx, D i = val_main_v61 (F := Ideal) x3 (ix1 (i 0))) :
    val_main_v79 (F := Ideal) x0 x1 x2 x3 x4 x5 x6 x7 x8 x9 x10 x11 x12 x13 x14 x15
      = Cert.Spec.final (val_main_v67 (F := Ideal) x0 x1 x2 x3 x4 x5 x6 x7 x8 x9 x10 x11 x12 x13 x14 x15)
          (val_main_v72 (F := Ideal) x0 x1 x2 x3 x4 x5 x6 x7 x8 x9 x10 x11 x12 x13 x14 x15) D := by
  funext i
  obtain ⟨r, j, rfl⟩ : ∃ (r : Fin 50000) (j : Fin 64), i = ix2 r j := ⟨i 0, i 1, eq_ix2 i⟩
  -- the reference's entry, operation by operation from the square root inwards
  rw [val_main_v79_apply, val_main_v78_apply, val_main_v77_apply, val_main_cst_11_apply, val_main_v76_apply,
    val_main_call4_v0_apply, val_main_call4_cst_apply, val_main_v75_apply, val_main_v74_apply, val_main_v69_apply,
    val_main_v73_apply, val_main_v68_apply]
  -- both copies of the broadcast denominator are max(in-degree, 1)
  have h73 : idx_main_v73 (ix2 r j) = idx_main_v68 (ix2 r j) := rfl
  rw [h73, final_denom]
  -- the specification's entry, with its in-degree array read through the hypothesis
  show _ = Cert.Spec.fin _ _ (D (ix2 r j))
  rw [hD (ix2 r j)]
  -- the same scalar operations on both sides
  unfold Cert.Spec.fin
  simp only [Ideal.hostUnary_sqrt_def, Ideal.addf_def, Ideal.maximumf_def, Ideal.subf_def, Ideal.hostDivf_def,
    Ideal.ofBits_def]

end Cert.ReferenceIdeal.Bridge

end
-- ==== Proof.Join.lean ====
/-
  The two idealized programs compute ONE function of the sixteen arrays.
  The reference's last stage is, entry by entry, the specification's 'fin' of its two segment sums and its in-degree; its
  messages are the specification's 'msg' of the edge features and its gathered pooled rows; its pooled rows the
  specification's 'pool'. The kernel program's composed term is the same three functions over the same gather and the
  same scatter-adds, the weights transposed and the biases reshaped by the host instead of inside a product: entry
  (k, j) of a transposed matrix is entry (j, k), entry (0, j) of a bias row is entry j, and the in-degree broadcast
  along the features holds at (r, j) the degree of node r.
-/
import proofs.«160303_j52123723105097_1_alg».proof.Proof.KChain
import proofs.«160303_j52123723105097_1_alg».proof.Proof.RefPool
import proofs.«160303_j52123723105097_1_alg».proof.Proof.RefMsg
import proofs.«160303_j52123723105097_1_alg».proof.Proof.RefFinal
import Idealize.ShloMosaic.Lib.Pipeline.Value
import Idealize.ShloMosaic.Lib.ValueIdx

set_option maxRecDepth 16384

noncomputable section

namespace Cert.Proof.Join

open Idealize.ShloMosaic Idealize.ShloMosaic.ValueIdx
open Cert.KernelIdeal.Chain (T Rs gidx sidx deg segsum degB vp vsrc m1 m2 result)
open Cert.Spec (SN SE SW SR)

/-- Entry (k, j) of the transposed matrix is entry (j, k). -/
theorem T_at (x : SW.Idx → EReal) (k j : Fin 64) : T x (ix2 k j) = x (ix2 j k) := by
  unfold Cert.KernelIdeal.Chain.T
  exact transpose_apply [1, 0] x _ (ix2 k j) (ix2 j k) (fun b => match b with
    | ⟨0, _⟩ => rfl
    | ⟨1, _⟩ => rfl)

/-- Entry (0, j) of the bias row is entry j of the bias. -/
theorem Rs_at (x : (⟨1, ![64]⟩ : Shape).Idx → EReal) (j : Fin 64) : Rs x (ix2 (0 : Fin 1) j) = x (ix1 j) := by
  unfold Cert.KernelIdeal.Chain.Rs
  refine shapeCast_apply x _ (ix2 (0 : Fin 1) j) (ix1 j) ?_
  rw [Shape.rowMajor_val_two, Shape.rowMajor_val_one]
  show j.val = (0 : Fin 1).val * 64 + j.val
  simp

/-- The in-degree repeated along the features holds at (r, j) the degree of node r. -/
theorem degB_at (x3 : (⟨1, ![800000]⟩ : Shape).Idx → BitVec 32) (i : SN.Idx) : degB x3 i = deg x3 (ix1 (i 0)) := by
  unfold Cert.KernelIdeal.Chain.degB
  refine (broadcastInDim_apply _ _ _ i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ _ _ _ (ix1 (i 0)) (fun a => match a with
    | ⟨0, _⟩ => by show (i 0).val = if (50000 : Nat) = 1 then 0 else (i 0).val; rw [if_neg (by decide)])

section
variable (x0 : SN.Idx → EReal) (x1 : SE.Idx → EReal) (x2 x3 : (⟨1, ![800000]⟩ : Shape).Idx → BitVec 32)
  (x4 : SW.Idx → EReal) (x5 : (⟨1, ![64]⟩ : Shape).Idx → EReal) (x6 : SW.Idx → EReal) (x7 : (⟨1, ![64]⟩ : Shape).Idx → EReal)
  (x8 : SW.Idx → EReal) (x9 : (⟨1, ![64]⟩ : Shape).Idx → EReal) (x10 : SW.Idx → EReal) (x11 : (⟨1, ![64]⟩ : Shape).Idx → EReal)
  (x12 : SW.Idx → EReal) (x13 : (⟨1, ![64]⟩ : Shape).Idx → EReal) (x14 : SW.Idx → EReal) (x15 : (⟨1, ![64]⟩ : Shape).Idx → EReal)

/-- The reference's in-degree is the kernel program's: the same scatter-add of ones. -/
theorem deg_eq : Cert.ReferenceIdeal.Read.val_main_v61 (F := Ideal) x3 = deg x3 := rfl

/-- The reference's gathered pooled rows are the kernel program's. -/
theorem gathered_eq : Cert.ReferenceIdeal.Read.val_main_v54 (F := Ideal) x0 x2 x4 x5 x6 x7 = vsrc x0 x2 x4 x5 x6 x7 := by
  unfold Cert.ReferenceIdeal.Read.val_main_v54
  rw [Cert.ReferenceIdeal.Bridge.pool_eq x0 x4 x5 x6 x7 (T x4) (Rs x5) (T x6) (Rs x7) (T_at x4) (Rs_at x5) (T_at x6) (Rs_at x7)]
  rfl

/-- The reference's messages are the kernel program's. -/
theorem msg_eq : Cert.ReferenceIdeal.Read.val_main_v56 (F := Ideal) x0 x1 x2 x4 x5 x6 x7 x8 x9 x10 x11 x12 x13 x14 x15 = m1 x0 x1 x2 x4 x5 x6 x7 x8 x9 x10 x11 x12 x13 x14 x15 := by
  rw [Cert.ReferenceIdeal.Bridge.msg_eq x0 x1 x2 x4 x5 x6 x7 x8 x9 x10 x11 x12 x13 x14 x15 (T x8) (Rs x9) (T x10) (Rs x11) (T x12) (Rs x13) (T x14) (Rs x15)
    (T_at x8) (Rs_at x9) (T_at x10) (Rs_at x11) (T_at x12) (Rs_at x13) (T_at x14) (Rs_at x15), gathered_eq]
  rfl

/-- And its squared messages. -/
theorem msgSq_eq : Cert.ReferenceIdeal.Read.val_main_v57 (F := Ideal) x0 x1 x2 x4 x5 x6 x7 x8 x9 x10 x11 x12 x13 x14 x15 = m2 x0 x1 x2 x4 x5 x6 x7 x8 x9 x10 x11 x12 x13 x14 x15 := by
  rw [Cert.ReferenceIdeal.Bridge.msgSq_eq x0 x1 x2 x4 x5 x6 x7 x8 x9 x10 x11 x12 x13 x14 x15 (T x8) (Rs x9) (T x10) (Rs x11) (T x12) (Rs x13) (T x14) (Rs x15)
    (T_at x8) (Rs_at x9) (T_at x10) (Rs_at x11) (T_at x12) (Rs_at x13) (T_at x14) (Rs_at x15), gathered_eq]
  rfl

/-- The reference's two segment sums are the kernel program's. -/
theorem sum1_eq : Cert.ReferenceIdeal.Read.val_main_v67 (F := Ideal) x0 x1 x2 x3 x4 x5 x6 x7 x8 x9 x10 x11 x12 x13 x14 x15 = segsum x3 (m1 x0 x1 x2 x4 x5 x6 x7 x8 x9 x10 x11 x12 x13 x14 x15) := by
  unfold Cert.ReferenceIdeal.Read.val_main_v67
  rw [msg_eq]
  rfl
theorem sum2_eq : Cert.ReferenceIdeal.Read.val_main_v72 (F := Ideal) x0 x1 x2 x3 x4 x5 x6 x7 x8 x9 x10 x11 x12 x13 x14 x15 = segsum x3 (m2 x0 x1 x2 x4 x5 x6 x7 x8 x9 x10 x11 x12 x13 x14 x15) := by
  unfold Cert.ReferenceIdeal.Read.val_main_v72
  rw [msgSq_eq]
  rfl

/-- THE TWO PROGRAMS' RESULTS ARE ONE FUNCTION of the sixteen arrays. -/
theorem ref_eq : Cert.ReferenceIdeal.Read.val_main_v79 (F := Ideal) x0 x1 x2 x3 x4 x5 x6 x7 x8 x9 x10 x11 x12 x13 x14 x15 = result x0 x1 x2 x3 x4 x5 x6 x7 x8 x9 x10 x11 x12 x13 x14 x15 := by
  rw [Cert.ReferenceIdeal.Bridge.final_eq x0 x1 x2 x3 x4 x5 x6 x7 x8 x9 x10 x11 x12 x13 x14 x15 (degB x3) (fun i => (degB_at x3 i).trans (congrFun (deg_eq x3).symm _)),
    sum1_eq, sum2_eq]
  rfl
end

end Cert.Proof.Join

end
-- ==== Proof.lean ====
/-
  A message-passing layer as three kernels with host glue, against its plain reference, over the extended reals.

  Both programs compute, from node features V, edge features E, source and destination ids and six dense layers:
  the pooled node rows Vp = B (lrelu (A (lrelu V))); for every edge the message m = sigmoid (h · WB + bB) * Vp[src] + (h · WC + bC)
  with h = relu (relu (E · W1 + b1) · W2 + b2), and its square; the sums a, b of messages and squared messages onto the
  destination nodes and the in-degree d; and the result sqrt (max (b / max d 1 - a / max d 1) 0 + eps).
  The kernel program does the pooling, the edge stage and the last combination in three tiled kernels (row blocks of 5000
  nodes, 8000 edges, 5000 nodes) and leaves the gather and the three scatter-adds to the host; the reference does all of it
  on the host. At the ideal instance a change of float format is the identity, a kernel's product into a zero accumulator
  and the host's dot_general are the same finite sum, the kernel's one-operation sigmoid is the host's 1 / (1 + exp (-x)),
  and every tile of a kernel's result is the restriction of one whole-array function: so the kernel program's result is one
  composed term of the sixteen arrays (module KChain), the reference's run ends at the same term (module Join), and no
  property of the inputs is used. The ideal pass rewrote nothing, so 'preserves' is trivial.
-/
import proofs.«160303_j52123723105097_1_alg».proof.Defs
import proofs.«160303_j52123723105097_1_alg».proof.Proof.Gen.Kernel
import proofs.«160303_j52123723105097_1_alg».proof.Proof.Gen.Kernel.Skeleton
import proofs.«160303_j52123723105097_1_alg».proof.Proof.Gen.Kernel.Launch
import proofs.«160303_j52123723105097_1_alg».proof.Proof.Gen.Kernel.Points
import proofs.«160303_j52123723105097_1_alg».proof.Proof.Gen.Kernel.Frame
import proofs.«160303_j52123723105097_1_alg».proof.Proof.Gen.KernelIdeal
import proofs.«160303_j52123723105097_1_alg».proof.Proof.Gen.KernelIdeal.Skeleton
import proofs.«160303_j52123723105097_1_alg».proof.Proof.Gen.KernelIdeal.Launch
import proofs.«160303_j52123723105097_1_alg».proof.Proof.Gen.KernelIdeal.Points
import proofs.«160303_j52123723105097_1_alg».proof.Proof.Gen.KernelIdeal.Frame
import proofs.«160303_j52123723105097_1_alg».proof.Proof.Gen.ReferenceIdeal
import proofs.«160303_j52123723105097_1_alg».proof.Proof.Gen.Pre_finite_inputs
import proofs.«160303_j52123723105097_1_alg».proof.Proof.Gen.ReferenceIdeal.Run
import proofs.«160303_j52123723105097_1_alg».proof.Proof.Gen.ReferenceIdeal.Read
import proofs.«160303_j52123723105097_1_alg».proof.Proof.KLaunch
import proofs.«160303_j52123723105097_1_alg».proof.Proof.KChain
import proofs.«160303_j52123723105097_1_alg».proof.Proof.Join
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the sixteen arrays both programs end at the layer's result of those arrays: the kernel
    program's run ends at its composed term, the reference's at its last stage, and the two are one function. -/
theorem algebraic : Cert.algebraic_KernelIdeal_ReferenceIdeal := by
  intro m ρ m' ρ' _ hagree
  refine ⟨fun c => Cert.KernelIdeal.Chain.result (Cert.KernelIdeal.Chain.arg m c Cert.KernelIdeal.main_arg0) (Cert.KernelIdeal.Chain.arg m c Cert.KernelIdeal.main_arg1) (Cert.KernelIdeal.Chain.arg m c Cert.KernelIdeal.main_arg2) (Cert.KernelIdeal.Chain.arg m c Cert.KernelIdeal.main_arg3) (Cert.KernelIdeal.Chain.arg m c Cert.KernelIdeal.main_arg4) (Cert.KernelIdeal.Chain.arg m c Cert.KernelIdeal.main_arg5) (Cert.KernelIdeal.Chain.arg m c Cert.KernelIdeal.main_arg6) (Cert.KernelIdeal.Chain.arg m c Cert.KernelIdeal.main_arg7) (Cert.KernelIdeal.Chain.arg m c Cert.KernelIdeal.main_arg8) (Cert.KernelIdeal.Chain.arg m c Cert.KernelIdeal.main_arg9) (Cert.KernelIdeal.Chain.arg m c Cert.KernelIdeal.main_arg10) (Cert.KernelIdeal.Chain.arg m c Cert.KernelIdeal.main_arg11) (Cert.KernelIdeal.Chain.arg m c Cert.KernelIdeal.main_arg12) (Cert.KernelIdeal.Chain.arg m c Cert.KernelIdeal.main_arg13) (Cert.KernelIdeal.Chain.arg m c Cert.KernelIdeal.main_arg14) (Cert.KernelIdeal.Chain.arg m c Cert.KernelIdeal.main_arg15), ?_, ?_⟩
  · exact (θ_run Cert.KernelIdeal.defs _ _).mono (fun r h c => ⟨(h c).1.trans (Cert.KernelIdeal.Chain.value m ρ c), (h c).2⟩)
      (Cert.KernelIdeal.Named.run_named (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15⟩ := hagree c
    rw [(h c).1, Cert.ReferenceIdeal.Read.val_main_v79_eq, Cert.Proof.Join.ref_eq, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
